-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x8192 : Shape := ⟨3, ![32, 512, 8192]⟩
abbrev S512x512 : Shape := ⟨2, ![512, 512]⟩
abbrev S512 : Shape := ⟨1, ![512]⟩
abbrev S_ : Shape := ⟨0, ![]⟩

class Facts : Prop where
  bcast_S_S32x512x8192 : S_.BroadcastsInDim S32x512x8192 (![] : Fin 0 → Fin S32x512x8192.rank)
  reducesTo_S32x512x8192_S_d0_1_2 : S32x512x8192.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512x512 .f32) (main_arg8 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S512 .f32) (main_arg6 : FVec F S512 .f32) (main_arg7 : FVec F S512x512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S32x512x8192 .f32) (main_arg1 : FVec F S512x512 .f32) (main_arg2 : FVec F S512 .f32) (main_arg3 : FVec F S512 .f32) (main_arg4 : FVec F S512 .f32) (main_arg5 : FVec F S512 .f32) (main_arg6 : FVec F S512 .f32) (main_arg7 : FVec F S512x512 .f32) (main_arg8 : FVec F S512 .f32) : IVec S_ 1 :=
  let main_v0 : FVec F S32x512x8192 .f32 := Host.absf main_arg0
  let main_cst : FVec F S_ .f32 := constant S_ .f32 0x7F800000#32
  let main_v1 : FVec F S32x512x8192 .f32 := broadcastInDim S32x512x8192 ![] bcast_S_S32x512x8192 main_cst
  let main_v2 : IVec S32x512x8192 1 := cmpf .olt main_v0 main_v1
  let main_c : IVec S_ 1 := constantI S_ 1 1#1
  let main_v3 : IVec S_ 1 := (fun x v => Host.reduce IntOp.andi x v reducesTo_S32x512x8192_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S32x512x8192 : Shape := ⟨3, ![32, 512, 8192]⟩
abbrev S512x512 : Shape := ⟨2, ![512, 512]⟩
abbrev S512 : Shape := ⟨1, ![512]⟩
abbrev S32x512 : Shape := ⟨2, ![32, 512]⟩
abbrev S32x512x256 : Shape := ⟨3, ![32, 512, 256]⟩
abbrev S1x512 : Shape := ⟨2, ![1, 512]⟩
abbrev S32x512x1 : Shape := ⟨3, ![32, 512, 1]⟩
abbrev S32x512x128 : Shape := ⟨3, ![32, 512, 128]⟩

abbrev nBuf : Space → Nat
  | .hbm => 14
  | .vmem => 19
  | .smem => 0
  | _ => 0

abbrev bufTy : (tb : Table) → Fin (tcTables nBuf tb) → BufTy
  | .hbm, ⟨0, _⟩ => ⟨S32x512x8192, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S32x512, .f32⟩
  | .hbm, ⟨10, _⟩ => ⟨S32x512, .f32⟩
  | .hbm, ⟨11, _⟩ => ⟨S32x512, .f32⟩
  | .hbm, ⟨12, _⟩ => ⟨S32x512x1, .f32⟩
  | .hbm, ⟨13, _⟩ => ⟨S32x512x8192, .f32⟩
  | .local _ .vmem, ⟨0, _⟩ => ⟨S32x512x256, .f32⟩
  | .local _ .vmem, ⟨1, _⟩ => ⟨S32x512x256, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S512x512, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S512x512, .f32⟩
  | .local _ .vmem, ⟨12, _⟩ => ⟨S512, .f32⟩
  | .local _ .vmem, ⟨13, _⟩ => ⟨S32x512, .f32⟩
  | .local _ .vmem, ⟨14, _⟩ => ⟨S32x512x128, .f32⟩
  | .local _ .vmem, ⟨15, _⟩ => ⟨S32x512x128, .f32⟩
  | .local _ .vmem, ⟨16, _⟩ => ⟨S32x512x1, .f32⟩
  | .local _ .vmem, ⟨17, _⟩ => ⟨S32x512x128, .f32⟩
  | .local _ .vmem, ⟨18, _⟩ => ⟨S32x512x128, .f32⟩
  | _, _ => ⟨S32x512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev cc1_sem9_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v10 : BitVec 1 := Scalar.cmpi .eq arg0 c31_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage2_0 : Fin 2 → Memref sig .tc .vmem S32x512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x512x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S32x512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x512x256_S32x512x256_0_0_0 : ∀ a, (![0, 0, 0] : Fin 3 → Nat) a + S32x512x256.size a ≤ S32x512x256.size a
  h_S32x512x256 : 0 < S32x512x256.numel
  reduces_S32x512x256_S32x512 : S32x512x256.Reduces [2] S32x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S32x512 : S1x512.Broadcasts S32x512
  bcast_S32x512_S32x512x1_0_1 : S32x512.BroadcastsInDim S32x512x1 (![0, 1] : Fin 2 → Fin S32x512x1.rank)
  inb_S32x512x128_S32x512x128_0_0_0 : ∀ a, (![0, 0, 0] : Fin 3 → Nat) a + S32x512x128.size a ≤ S32x512x128.size a
  h_S32x512x128 : 0 < S32x512x128.numel
  inb_S32x512x1_S32x512x1_0_0_0 : ∀ a, (![0, 0, 0] : Fin 3 → Nat) a + S32x512x1.size a ≤ S32x512x1.size a
  h_S32x512x1 : 0 < S32x512x1.numel
  shapeCasts_S32x512x1_S32x512x1 : S32x512x1.ShapeCasts S32x512x1
  broadcasts_S32x512x1_S32x512x128 : S32x512x1.Broadcasts S32x512x128
  dot_S32x512_S512x512_S32x512_1_1_0_0_n_n_wf : DotDims.WF S32x512 S512x512 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x256.size a ≤ S32x512x8192.size a
  hwx0_0 : ∀ i : grid0.Coords, EltTy.bits .f32 = 32 ∨ (Rect.block (s := S32x512x8192) S32x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x512.size a ≤ S32x512.size a
  hwx1_0 : ∀ i : grid1.Coords, EltTy.bits .f32 = 32 ∨ (Rect.block (s := S32x512) S32x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S512.size a
  hwx1_5 : ∀ i : grid1.Coords, EltTy.bits .f32 = 32 ∨ (Rect.block (s := S512) S512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S512x512.size a
  hwx1_7 : ∀ i : grid1.Coords, EltTy.bits .f32 = 32 ∨ (Rect.block (s := S512x512) S512x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512.size a ≤ S512.size a
  hwx1_8 : ∀ i : grid1.Coords, EltTy.bits .f32 = 32 ∨ (Rect.block (s := S512) S512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x512.size a ≤ S32x512.size a
  hwx1_9 : ∀ i : grid1.Coords, EltTy.bits .f32 = 32 ∨ (Rect.block (s := S32x512) S32x512.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x512x128.size a ≤ S32x512x8192.size a
  hwx2_0 : ∀ i : grid2.Coords, EltTy.bits .f32 = 32 ∨ (Rect.block (s := S32x512x8192) S32x512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x512x1.size a ≤ S32x512x1.size a
  hwx2_1 : ∀ i : grid2.Coords, EltTy.bits .f32 = 32 ∨ (Rect.block (s := S32x512x1) S32x512x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x512x128.size a ≤ S32x512x8192.size a
  hwx2_2 : ∀ i : grid2.Coords, EltTy.bits .f32 = 32 ∨ (Rect.block (s := S32x512x8192) S32x512x128.size (cc2_transform_2 i) (hinb2_2 i)).WholeWords (EltTy.packing .f32)

variable [Facts₀]

def dot_S32x512_S512x512_S32x512_1_1_0_0_n_n : DotDims S32x512 S512x512 S32x512 where
  lhsContracting := [1]
  rhsContracting := [1]
  lhsNonContracting := [0]
  rhsNonContracting := [0]
  lhsBatch := []
  rhsBatch := []
  wf := dot_S32x512_S512x512_S32x512_1_1_0_0_n_n_wf

abbrev win0_0 : Pipeline.Window sig grid0 :=
  Pipeline.Window.ofSpec (Memref.whole main_arg0) S32x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S32x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S512x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v1) S32x512.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg0) S32x512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S32x512x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S32x512x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S32x512x8192 : Shape := ⟨3, ![32, 512, 8192]⟩
abbrev S512x512 : Shape := ⟨2, ![512, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S32x512x1 : Shape := ⟨3, ![32, 512, 1]⟩

abbrev nBuf : Space → Nat
  | .hbm => 59
  | .vmem => 0
  | .smem => 0
  | _ => 0

abbrev bufTy : (tb : Table) → Fin (tcTables nBuf tb) → BufTy
  | .hbm, ⟨0, _⟩ => ⟨S32x512x8192, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S32x512x8192, .f32⟩
  | .hbm, ⟨10, _⟩ => ⟨S_, .f32⟩
  | .hbm, ⟨11, _⟩ => ⟨S32x512, .f32⟩
  | .hbm, ⟨12, _⟩ => ⟨S_, .f32⟩
  | .hbm, ⟨13, _⟩ => ⟨S32x512, .f32⟩
  | .hbm, ⟨14, _⟩ => ⟨S32x512, .f32⟩
  | .hbm, ⟨15, _⟩ => ⟨S512x512, .f32⟩
  | .hbm, ⟨16, _⟩ => ⟨S32x512, .f32⟩
  | .hbm, ⟨17, _⟩ => ⟨S1x512, .f32⟩
  | .hbm, ⟨18, _⟩ => ⟨S32x512, .f32⟩
  | .hbm, ⟨19, _⟩ => ⟨S32x512, .f32⟩
  | .hbm, ⟨20, _⟩ => ⟨S1x512, .f32⟩
  | .hbm, ⟨21, _⟩ => ⟨S32x512, .f32⟩
  | .hbm, ⟨22, _⟩ => ⟨S32x512, .f32⟩
  | .hbm, ⟨23, _⟩ => ⟨S1x512, .f32⟩
  | .hbm, ⟨24, _⟩ => ⟨S32x512, .f32⟩
  | .hbm, ⟨25, _⟩ => ⟨S32x512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S1x512, .f32⟩
  | .hbm, ⟨31, _⟩ => ⟨S32x512, .f32⟩
  | .hbm, ⟨32, _⟩ => ⟨S32x512, .f32⟩
  | .hbm, ⟨33, _⟩ => ⟨S1x512, .f32⟩
  | .hbm, ⟨34, _⟩ => ⟨S32x512, .f32⟩
  | .hbm, ⟨35, _⟩ => ⟨S32x512, .f32⟩
  | .hbm, ⟨36, _⟩ => ⟨S_, .f32⟩
  | .hbm, ⟨37, _⟩ => ⟨S32x512, .f32⟩
  | .hbm, ⟨38, _⟩ => ⟨S32x512, .f32⟩
  | .hbm, ⟨39, _⟩ => ⟨S512x512, .f32⟩
  | .hbm, ⟨40, _⟩ => ⟨S32x512, .f32⟩
  | .hbm, ⟨41, _⟩ => ⟨S1x512, .f32⟩
  | .hbm, ⟨42, _⟩ => ⟨S32x512, .f32⟩
  | .hbm, ⟨43, _⟩ => ⟨S32x512, .f32⟩
  | .hbm, ⟨44, _⟩ => ⟨S32x512, .f32⟩
  | .hbm, ⟨45, _⟩ => ⟨S32x512, .f32⟩
  | .hbm, ⟨46, _⟩ => ⟨S_, .f32⟩
  | .hbm, ⟨47, _⟩ => ⟨S32x512, .f32⟩
  | .hbm, ⟨48, _⟩ => ⟨S32x512, .f32⟩
  | .hbm, ⟨49, _⟩ => ⟨S_, .f32⟩
  | .hbm, ⟨50, _⟩ => ⟨S32x512, .f32⟩
  | .hbm, ⟨51, _⟩ => ⟨S32x512, .f32⟩
  | .hbm, ⟨52, _⟩ => ⟨S32x512, .f32⟩
  | .hbm, ⟨53, _⟩ => ⟨S32x512x1, .f32⟩
  | .hbm, ⟨54, _⟩ => ⟨S32x512x8192, .f32⟩
  | .hbm, ⟨55, _⟩ => ⟨S32x512x8192, .f32⟩
  | .hbm, ⟨56, _⟩ => ⟨S_, .f32⟩
  | .hbm, ⟨57, _⟩ => ⟨S32x512x8192, .f32⟩
  | .hbm, ⟨58, _⟩ => ⟨S32x512x8192, .f32⟩
  | _, _ => ⟨S32x512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]

class Facts₀ : Prop where
  reducesTo_S32x512x8192_S32x512_d2 : S32x512x8192.ReducesTo [2] S32x512
  h_S_ : 0 < S_.numel
  bcast_S_S32x512 : S_.BroadcastsInDim S32x512 (![] : Fin 0 → Fin S32x512.rank)
  transposes_S512x512_S512x512_1_0 : S512x512.Transposes [1, 0] S512x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S512 : S_.BroadcastsInDim S512 (![] : Fin 0 → Fin S512.rank)
  bcast_S32x512_S32x512x1_0_1 : S32x512.BroadcastsInDim S32x512x1 (![0, 1] : Fin 2 → Fin S32x512x1.rank)
  bcast_S32x512x1_S32x512x8192_0_1_2 : S32x512x1.BroadcastsInDim S32x512x8192 (![0, 1, 2] : Fin 3 → Fin S32x512x8192.rank)
  bcast_S_S32x512x8192 : S_.BroadcastsInDim S32x512x8192 (![] : Fin 0 → Fin S32x512x8192.rank)
  dot_S32x512_S512x512_S32x512_1_0_0_1_n_n_wf : DotDims.WF S32x512 S512x512 S32x512 [1] [0] [0] [1] [] []

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf

class Facts : Prop extends Facts₀ where

variable [Facts]
-- ==== Proof.Mean.lean ====
/-
  The first pallas_call: the mean of x over its last axis, 8192 long, taken in 32 slabs of 256 columns. A scratch
  accumulator of shape 32 x 512 is reset at the first grid point, receives each slab's row sums, and at the last
  point is scaled by 2^-13 into the result. Everything here is stated at the contents `V` the region finds in
  the buffers, and at any float instance.
-/
import proofs.«102520_j78245714198911_1_alg».proof.Proof.Gen.KernelIdeal.Launch
import proofs.«102520_j78245714198911_1_alg».proof.Proof.Gen.KernelIdeal.Skeleton
import proofs.«102520_j78245714198911_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Mean

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, in closed form over the grid -/

/-- The condition of the reset branch as the body computes it from the grid coordinate. -/
abbrev cond1 (i : grid0.Coords) : Prop :=
  (Scalar.cmpi .ne (Scalar.extui (Scalar.cmpi .eq (BitVec.ofNat 32 (i 0).val) 0#32)) 0#32) = 1#1

/-- The accumulator is reset at the first point only. -/
theorem hcond1 : ∀ t : Fin cfg0.N, cond1 (grid0.coords t) ↔ t.val = 0 :=
  (by decide +kernel : ∀ t : Fin grid0.N, cond1 (grid0.coords t) ↔ t.val = 0)

/-- The result is stored at the last point only. -/
theorem hcond2 : ∀ t : Fin cfg0.N, k0_cond2 (grid0.coords t) = 1#1 ↔ t.val = 31 :=
  (by decide +kernel : ∀ t : Fin grid0.N, k0_cond2 (grid0.coords t) = 1#1 ↔ t.val = 31)

/-- The slab window is live at every point. -/
theorem live0_0 : ∀ t : Fin cfg0.N, cfg0.idle 0 (grid0.coords t) = false := by decide +kernel
/-- The result window is idle before the last point, -/
theorem idle0_1 : ∀ t : Fin cfg0.N, ¬t.val = 31 → cfg0.idle 1 (grid0.coords t) = true := by decide +kernel
/-- is not written back there, -/
theorem noFlush0_1 : ∀ t : Fin cfg0.N, ¬t.val = 31 → (cfg0.win 1).flush t = false := by decide +kernel
/-- and is live at the last point. -/
theorem live0_1 : ∀ t : Fin cfg0.N, t.val = 31 → cfg0.idle 1 (grid0.coords t) = false := by decide +kernel

/-! ## The body on any whole memrefs, case by case -/

theorem hz2 : (![0, 0] : Fin S32x512.rank → Nat) = fun _ => 0 := by
  funext a; fin_cases a <;> rfl

theorem hz3 : (![0, 0, 0] : Fin S32x512x256.rank → Nat) = fun _ => 0 := by
  funext a; fin_cases a <;> rfl

/-- A list of stores into a 32 x 512 buffer whose last store is of the whole buffer covers it. -/
theorem cover_head (w : S32x512.Idx → Elt F .f32) (L : List (View.Piece (Elt F) S32x512 .f32)) (y : S32x512.Idx) :
    ∃ pc ∈ ((⟨Rect.unit ![0, 0] S32x512.size inb_S32x512_S32x512_0_0, w⟩ : View.Piece (Elt F) S32x512 .f32) :: L), y ∈ pc.1.set :=
  ⟨_, List.mem_cons_self, View.mem_set_unit_zero hz2 inb_S32x512_S32x512_0_0 y⟩

set_option maxHeartbeats 1000000 in
/-- At the first point: the accumulator, whatever it held, is set to zero and then receives the slab's row sums. -/
theorem run_first (c : Dev nD) (E : Set ℕ) (i : grid0.Coords)
    (arg1 : Memref sig .tc .vmem S32x512x256 .f32) (harg1 : arg1.IsWhole)
    (arg2 : Memref sig .tc .vmem S32x512 .f32) (harg2 : arg2.IsWhole)
    (arg3 : Memref sig .tc .vmem S32x512 .f32) (harg3 : arg3.IsWhole)
    (hc1 : cond1 i) (hc2 : ¬k0_cond2 i = 1#1)
    (x : Vec F S32x512x256 .f32) (K : PUnit → sProp 𝕄) :
    iprop(owns (c : Thread nD τ) arg1 fullShare x ∗ (∃ d, owns (c : Thread nD τ) arg3 fullShare d)
        ∗ (iprop(owns (c : Thread nD τ) arg1 fullShare x ∗ owns (c : Thread nD τ) arg3 fullShare (k0_pay2 (k0_pay1 (F := F)) x)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f1, %hf1, H1⟩, ⟨%d3, %f3, -, H3⟩, Hk⟩
  subst hf1
  sl_exec (disch := first | exact hc1 | exact hc2)
  sl_step
  iapply Hk
  isplitl [H1]
  · iexists f1; isplitr; · ipureintro; rfl
    iexact H1
  iexists _; isplitr
  swap; · iexact H3
  ipureintro
  sl_unfold_words
  rw [View.read_writes_eq_canon _ _ _ (cover_head _ _), View.canon_cons_unit_zero hz2]
  simp only [View.readAt_eq_ld, View.ld_unit_zero (S := S32x512) hz2, View.ld_unit_zero (S := S32x512x256) hz3,
    View.readCov_unit_zero (S := S32x512) _ hz2]

set_option maxHeartbeats 1000000 in
/-- Between the first point and the last: the accumulator receives the slab's row sums. -/
theorem run_middle (c : Dev nD) (E : Set ℕ) (i : grid0.Coords)
    (arg1 : Memref sig .tc .vmem S32x512x256 .f32) (harg1 : arg1.IsWhole)
    (arg2 : Memref sig .tc .vmem S32x512 .f32) (harg2 : arg2.IsWhole)
    (arg3 : Memref sig .tc .vmem S32x512 .f32) (harg3 : arg3.IsWhole)
    (hc1 : ¬cond1 i) (hc2 : ¬k0_cond2 i = 1#1)
    (x : Vec F S32x512x256 .f32) (a : Vec F S32x512 .f32) (K : PUnit → sProp 𝕄) :
    iprop(owns (c : Thread nD τ) arg1 fullShare x ∗ owns (c : Thread nD τ) arg3 fullShare a
        ∗ (iprop(owns (c : Thread nD τ) arg1 fullShare x ∗ owns (c : Thread nD τ) arg3 fullShare (k0_pay2 a x)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f1, %hf1, H1⟩, ⟨%f3, %hf3, H3⟩, Hk⟩
  subst hf1; subst hf3
  sl_exec (disch := first | exact hc1 | exact hc2)
  sl_step
  iapply Hk
  isplitl [H1]
  · iexists f1; isplitr; · ipureintro; rfl
    iexact H1
  iexists _; isplitr
  swap; · iexact H3
  ipureintro
  sl_unfold_words
  rw [View.read_writes_eq_canon _ _ _ (cover_head _ _), View.canon_cons_unit_zero hz2]
  simp only [View.readAt_eq_ld, View.ld_unit_zero (S := S32x512) hz2, View.ld_unit_zero (S := S32x512x256) hz3,
    View.readCov_unit_zero (S := S32x512) _ hz2]

set_option maxHeartbeats 1000000 in
/-- At the last point: the accumulator receives the slab's row sums, and the result's buffer, whatever it held,
    receives the accumulator times 2^-13. -/
theorem run_last (c : Dev nD) (E : Set ℕ) (i : grid0.Coords)
    (arg1 : Memref sig .tc .vmem S32x512x256 .f32) (harg1 : arg1.IsWhole)
    (arg2 : Memref sig .tc .vmem S32x512 .f32) (harg2 : arg2.IsWhole)
    (arg3 : Memref sig .tc .vmem S32x512 .f32) (harg3 : arg3.IsWhole)
    (hc1 : ¬cond1 i) (hc2 : k0_cond2 i = 1#1)
    (x : Vec F S32x512x256 .f32) (a : Vec F S32x512 .f32) (K : PUnit → sProp 𝕄) :
    iprop(owns (c : Thread nD τ) arg1 fullShare x ∗ (∃ d, owns (c : Thread nD τ) arg2 fullShare d) ∗ owns (c : Thread nD τ) arg3 fullShare a
        ∗ (iprop(owns (c : Thread nD τ) arg1 fullShare x ∗ owns (c : Thread nD τ) arg2 fullShare (k0_pay3 (k0_pay2 a x))
            ∗ owns (c : Thread nD τ) arg3 fullShare (k0_pay2 a x)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f1, %hf1, H1⟩, ⟨%d2, %f2, -, H2⟩, ⟨%f3, %hf3, H3⟩, Hk⟩
  subst hf1; subst hf3
  sl_exec (disch := first | exact hc1 | exact hc2)
  sl_step
  iapply Hk
  isplitl [H1]
  · iexists f1; isplitr; · ipureintro; rfl
    iexact H1
  isplitl [H2]
  · iexists _; isplitr
    swap; · iexact H2
    ipureintro
    sl_unfold_words
    rw [View.read_writes_eq_canon _ _ _ (cover_head _ _), View.canon_cons_unit_zero hz2]
    simp only [View.readAt_eq_ld, View.ld_unit_zero (S := S32x512) hz2, View.ld_unit_zero (S := S32x512x256) hz3,
      View.readCov_unit_zero (S := S32x512) _ hz2]
  iexists _; isplitr
  swap; · iexact H3
  ipureintro
  sl_unfold_words
  rw [View.read_writes_eq_canon _ _ _ (cover_head _ _), View.canon_cons_unit_zero hz2]
  simp only [View.readAt_eq_ld, View.ld_unit_zero (S := S32x512) hz2, View.ld_unit_zero (S := S32x512x256) hz3,
    View.readCov_unit_zero (S := S32x512) _ hz2]

/-! ## The blocks, the accumulator point by point, the proof data -/

variable (V : (c : Dev nD) → (b : Ref sig .tc) → Buf (Elt F) ((c : Thread nD τ).loc b))

/-- Window `w`'s block at grid point `t`, read off its array as the region finds it. For window 0 it is the
    256-column slab of x at columns [256 t, 256 t + 256). -/
def slab (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after grid point `n`: zero plus the row sums of slabs 0 … n, added in that order. -/
def accAt (c : Dev nD) : (n : ℕ) → n < cfg0.N → Vec F S32x512 .f32
  | 0, h => k0_pay2 (k0_pay1 (F := F)) (slab V c 0 ⟨0, h⟩)
  | n + 1, h => k0_pay2 (accAt c n (Nat.lt_of_succ_lt h)) (slab V c 0 ⟨n + 1, h⟩)

/-- What the last grid point stores into the result's block: the full accumulator times 2^-13. -/
def meanOut (c : Dev nD) : Vec F S32x512 .f32 := k0_pay3 (accAt V c 31 (by decide))

/-- The scratch accumulator as a whole memref. -/
abbrev accM : Memref sig .tc .vmem S32x512 .f32 := Memref.whole cc0_scratch0

/-- The region's invariant before grid position `n`: before the first point nothing is known of the scratch; after
    point `n` it holds `accAt n`. Beside the scratch go the core's other scoped buffers that are no staging buffer
    of this call, each at some contents, and the generator register at some state. -/
def PhiAcc (c : Dev nD) : (n : ℕ) → n ≤ cfg0.N → sProp 𝕄
  | 0, _ => Pipeline.ΦA spec0 c
  | n + 1, hn => iprop(iprop(owns (c : Thread nD τ) accM fullShare (accAt V c n hn) ∗ Pipeline.scopedRestBut spec0 c [cc0_scratch0]) ∗ (∃ r, prngReg c r))

/-- The proof data of the first pipeline on core `c`. The result's block is written back at the last point only,
    where the body has stored `meanOut` into it. -/
def dat0 (c : Dev nD) : Dat τ (Elt F) Unit ℕ (UR sig nD τ) ℕ cfg0 c where
  A w := V c (Pipeline.arrRef spec0 w)
  after w t := match w with
    | ⟨0, _⟩ => slab V c 0 t
    | ⟨1, _⟩ => meanOut V c
  Φ t := PhiAcc V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = slab V c 0 t := by dsimp only [dat0]
theorem after0_1 (c : Dev nD) (t : Fin cfg0.N) : (dat0 V c).after 1 t = meanOut V c := by dsimp only [dat0]

/-! ## The invariant, position by position -/

theorem PhiAcc_zero (c : Dev nD) (n : ℕ) (h : n ≤ cfg0.N) (hz : n = 0) : PhiAcc V c n h = Pipeline.ΦA spec0 c := by
  subst hz; rfl

/-- After point `n`: the scratch at that point's accumulator. -/
theorem PhiAcc_succ (c : Dev nD) (n : ℕ) (hn : n < cfg0.N) :
    PhiAcc V c (n + 1) hn = iprop(iprop(owns (c : Thread nD τ) accM fullShare (accAt V c n hn) ∗ Pipeline.scopedRestBut spec0 c [cc0_scratch0]) ∗ (∃ r, prngReg c r)) := rfl

/-- Before a point that is not the first: the scratch at what the point before left. -/
theorem PhiAcc_pos (c : Dev nD) (n : ℕ) (h : n ≤ cfg0.N) (hz : n ≠ 0) :
    PhiAcc V c n h = iprop(iprop(owns (c : Thread nD τ) accM fullShare (accAt V c (n - 1) (by omega)) ∗ Pipeline.scopedRestBut spec0 c [cc0_scratch0]) ∗ (∃ r, prngReg c r)) := by
  cases n with
  | zero => exact absurd rfl hz
  | succ n => rfl

/-- The invariant at a point's start, restated at the point's number. -/
theorem PhiAcc_castSucc (c : Dev nD) (t : Fin cfg0.N) :
    (dat0 V c).Φ t.castSucc = PhiAcc V c t.val (Nat.le_of_lt t.isLt) := by
  dsimp only [dat0]; simp only [Fin.coe_castSucc]

/-- The entry's invariant opened at the scratch: the scratch as a memref owned at some contents, the other scoped
    buffers unopened, the generator register. -/
theorem PhiA0_eq (c : Dev nD) :
    (Pipeline.ΦA spec0 c : sProp 𝕄)
      = iprop(iprop((∃ d, owns (c : Thread nD τ) accM fullShare d) ∗ Pipeline.scopedRestBut spec0 c [cc0_scratch0]) ∗ (∃ r, prngReg c r)) := by
  unfold Pipeline.ΦA
  rw [Pipeline.scopedRest_split_of_list spec0 c [cc0_scratch0] (by decide) (by decide)]
  simp only [accM, owns_whole, bigSepL_singleton]; try rfl

/-- The accumulator after the first point. -/
theorem accAt_first (c : Dev nD) (t : Fin cfg0.N) (h0 : t.val = 0) :
    accAt V c t.val t.isLt = k0_pay2 (k0_pay1 (F := F)) (slab V c 0 t) := by
  obtain ⟨n, hn⟩ := t
  cases n with
  | zero => rfl
  | succ n => exact absurd h0 (Nat.succ_ne_zero n)

/-- The accumulator after a later point: the one before plus the point's row sums. -/
theorem accAt_later (c : Dev nD) (t : Fin cfg0.N) (h0 : t.val ≠ 0) :
    accAt V c t.val t.isLt = k0_pay2 (accAt V c (t.val - 1) (Nat.lt_of_le_of_lt (Nat.sub_le _ _) t.isLt)) (slab V c 0 t) := by
  obtain ⟨n, hn⟩ := t
  cases n with
  | zero => exact absurd rfl h0
  | succ n => rfl

/-- At the last point the stored result is the accumulator after that point, scaled. -/
theorem meanOut_last (c : Dev nD) (t : Fin cfg0.N) (h : t.val = 31) : meanOut V c = k0_pay3 (accAt V c t.val t.isLt) := by
  obtain ⟨n, hn⟩ := t
  dsimp only at h
  subst h
  rfl

/-! ## The body obligation -/

/-- Each window's current staging memref at point `t`, as the pipeline passes it to the body, and its wholeness. -/
abbrev ms0 (t : Fin cfg0.N) : Memref sig .tc .vmem S32x512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x512 .f32 := win0_1.stage (cfg0.slots t 1)
abbrev hs1 (t : Fin cfg0.N) : (ms1 t).IsWhole := hstage0_1 ((cfg0.slots t 1).cast nbuf0_1)

/-- The slab window's current staging buffer holds the point's slab at every point. -/
theorem before0_0 (c : Dev nD) (t : Fin cfg0.N) (d) : (dat0 V c).before 0 t d = slab V c 0 t :=
  ((dat0 V c).before_in_eq_fetched 0 rfl (fun _ => rfl) (fun _ _ _ => rfl)
    (fun t => by rw [after0_0]; unfold Dat.blockOf slab; rw [A_eq0]; try rfl) t d).trans
    (by unfold Dat.fetched Dat.blockOf slab; rw [A_eq0]; try rfl)

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The slab's buffer holds the slab; the invariant hands over the scratch, at anything at
    the first point and at the accumulator the point before left afterwards, and takes it back at this point's
    accumulator. Before the last point the result's buffer is handed back untouched; at the last point it is taken at
    anything and returned at the scaled accumulator. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [show (dat0 V c).Φ t.succ = PhiAcc V c (t.val + 1) t.isLt from rfl, PhiAcc_succ]
  rw [show (dat0 V c).leavesExact 0 t = owns (c : Thread nD τ) (ms0 t) fullShare ((dat0 V c).after 0 t) from by
    unfold Dat.leavesExact; rw [live0_0 t], after0_0]
  have hN : t.val < 32 := lt_of_lt_of_eq t.isLt (show cfg0.N = 32 from N_0)
  by_cases h31 : t.val = 31
  · have h0 : t.val ≠ 0 := by omega
    rw [show (dat0 V c).leavesExact 1 t = owns (c : Thread nD τ) (ms1 t) fullShare ((dat0 V c).after 1 t) from by
      unfold Dat.leavesExact; rw [live0_1 t h31], after0_1, meanOut_last V c t h31]
    rw [PhiAcc_castSucc V c t, PhiAcc_pos V c _ _ h0, accAt_later V c t h0]
    iintro ⟨⟨⟨HS, HR⟩, Hg⟩, Ho, ⟨%d0, H0⟩, ⟨%d1, H1⟩⟩
    iapply (run_last c Set.univ (grid0.coords t) (ms0 t) (hs0 t) (ms1 t) (hs1 t) accM (Memref.isWhole_whole _)
      ((hcond1 t).not.mpr h0) ((hcond2 t).mpr h31) (slab V c 0 t)
      (accAt V c (t.val - 1) (Nat.lt_of_le_of_lt (Nat.sub_le _ _) t.isLt)) _)
    isplitl [H0]; · iexact H0
    isplitl [H1]; · iexists _; iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexact H1
  · rw [Dat.leavesExact_idle (dat0 V c) 1 t (idle0_1 t h31) (noFlush0_1 t h31)]
    by_cases h0 : t.val = 0
    · rw [PhiAcc_castSucc V c t, PhiAcc_zero V c _ _ h0, PhiA0_eq, accAt_first V c t h0]
      iintro ⟨⟨⟨HS, HR⟩, Hg⟩, Ho, ⟨%d0, H0⟩, ⟨%d1, H1⟩⟩
      iapply (run_first c Set.univ (grid0.coords t) (ms0 t) (hs0 t) (ms1 t) (hs1 t) accM (Memref.isWhole_whole _)
        ((hcond1 t).mpr h0) ((hcond2 t).not.mpr h31) (slab V c 0 t) _)
      isplitl [H0]; · iexact H0
      isplitl [HS]; · iexact HS
      iintro ⟨H0, HS⟩
      isplitl [HS HR Hg]
      · isplitl [HS HR]
        · isplitl [HS]; · iexact HS
          iexact HR
        iexact Hg
      isplitl [Ho]; · iexact Ho
      isplitl [H0]; · iexact H0
      iexists _; iexact H1
    · rw [PhiAcc_castSucc V c t, PhiAcc_pos V c _ _ h0, accAt_later V c t h0]
      iintro ⟨⟨⟨HS, HR⟩, Hg⟩, Ho, ⟨%d0, H0⟩, ⟨%d1, H1⟩⟩
      iapply (run_middle c Set.univ (grid0.coords t) (ms0 t) (hs0 t) (ms1 t) (hs1 t) accM (Memref.isWhole_whole _)
        ((hcond1 t).not.mpr h0) ((hcond2 t).not.mpr h31) (slab V c 0 t)
        (accAt V c (t.val - 1) (Nat.lt_of_le_of_lt (Nat.sub_le _ _) t.isLt)) _)
      isplitl [H0]; · iexact H0
      isplitl [HS]; · iexact HS
      iintro ⟨H0, HS⟩
      isplitl [HS HR Hg]
      · isplitl [HS HR]
        · isplitl [HS]; · iexact HS
          iexact HR
        iexact Hg
      isplitl [Ho]; · iexact Ho
      isplitl [H0]; · iexact H0
      iexists _; iexact H1

/-- The library's body obligation, at every grid point. -/
theorem body_obligation0 (c : Dev nD) : BodyObligation (dat0 (F := F) V c) (defs₀ (F := F)) Variants.none () Set.univ := fun t => by
  rw [bigSep_W0, bigSep_W0]
  exact sound_body V c t

/-- What the region's entry hands the kernel is the invariant before the first point. -/
theorem hin0 (c : Dev nD) : Pipeline.ΦA spec0 c ⊢ (dat0 V c).Φ 0 := by
  rw [show (dat0 V c).Φ 0 = PhiAcc V c 0 (Nat.zero_le _) from rfl, PhiAcc_zero V c 0 _ rfl]

/-- After any point the invariant gives the entry's resources back: the accumulator's contents are forgotten. -/
theorem Phi_out (c : Dev nD) (t : Fin (cfg0.N + 1)) (ht : t.val ≠ 0) : (dat0 V c).Φ t ⊢ Pipeline.ΦA spec0 c := by
  rw [show (dat0 V c).Φ t = PhiAcc V c t.val (Nat.le_of_lt_succ t.isLt) from rfl, PhiAcc_pos V c _ _ ht, PhiA0_eq]
  iintro ⟨⟨HS, HR⟩, Hg⟩
  isplitl [HS HR]
  · isplitl [HS]; · iexists _; iexact HS
    iexact HR
  iexact Hg

/-- After the last point the invariant gives the entry's resources back: the accumulator's contents are forgotten. -/
theorem hout0 (c : Dev nD) : (dat0 V c).Φ (Fin.last cfg0.N) ⊢ Pipeline.ΦA spec0 c :=
  Phi_out V c _ (by rw [Fin.val_last]; have : cfg0.N = 32 := N_0; omega)

end Cert.KernelIdeal.Mean

end
-- ==== Proof.Gate.lean ====
/-
  The second pallas_call: the gate. One grid point; every operand is one whole block. From the mean a (32 x 512),
  the weights W1, W2 (512 x 512) and the seven vectors of length 512 it computes
      sigmoid( relu( gamma * ((a W1^T + b1) - mean) * rsqrt(var + eps) + beta ) W2^T + b2 ).
  Everything here is stated at the contents `V` the region finds in the buffers, and at any float instance.
-/
import proofs.«102520_j78245714198911_1_alg».proof.Proof.Gen.KernelIdeal.Launch
import proofs.«102520_j78245714198911_1_alg».proof.Proof.Gen.KernelIdeal.Skeleton
import proofs.«102520_j78245714198911_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it (the whole array: the grid
    has one point and every block is its array). -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores into the result's block: the gate of the nine operand blocks (the body's one payload; its
    vector operands in the order the body loads them: b1, gamma, mean, var, beta, then W2 and b2). -/
def gateOut (c : Dev nD) (t : Fin cfg1.N) : Vec F S32x512 .f32 :=
  k1_pay1 (blk1 V c 0 t) (blk1 V c 1 t) (blk1 V c 2 t) (blk1 V c 3 t) (blk1 V c 5 t) (blk1 V c 6 t) (blk1 V c 4 t) (blk1 V c 7 t) (blk1 V c 8 t)

/-- The proof data of the second pipeline on core `c`: every input's buffer keeps its block, the result's holds the gate. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => gateOut V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_9 (c : Dev nD) (t : Fin cfg1.N) : (dat1 V c).after 9 t = gateOut V c t := by dsimp only [dat1]

/-! ## The operands' buffers at the grid point -/

-- each operand's buffer holds its block at the point (the window is fetched there; were it not, its index would not have moved)
theorem before1_0 (c : Dev nD) (t : Fin cfg1.N) (d) : (dat1 V c).before 0 t d = blk1 V c 0 t :=
  ((dat1 V c).before_in_eq_fetched 0 rfl (fun _ => rfl) (fun _ _ _ => rfl)
    (fun t => by rw [show (dat1 V c).after 0 t = blk1 V c 0 t by dsimp only [dat1]]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [show (dat1 V c).after 1 t = blk1 V c 1 t by dsimp only [dat1]]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [show (dat1 V c).after 2 t = blk1 V c 2 t by dsimp only [dat1]]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [show (dat1 V c).after 3 t = blk1 V c 3 t by dsimp only [dat1]]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [show (dat1 V c).after 4 t = blk1 V c 4 t by dsimp only [dat1]]; unfold Dat.blockOf blk1; rw [A_eq1]; try rfl) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl)
    (fun t => by rw [show (dat1 V c).after 5 t = blk1 V c 5 t by dsimp only [dat1]]; unfold Dat.blockOf blk1; rw [A_eq1]; try rfl) t d).trans
    (by unfold Dat.fetched Dat.blockOf blk1; rw [A_eq1]; try rfl)
theorem before1_6 (c : Dev nD) (t : Fin cfg1.N) (d) : (dat1 V c).before 6 t d = blk1 V c 6 t :=
  ((dat1 V c).before_in_eq_fetched 6 rfl (fun _ => rfl) (fun _ _ _ => rfl)
    (fun t => by rw [show (dat1 V c).after 6 t = blk1 V c 6 t by dsimp only [dat1]]; unfold Dat.blockOf blk1; rw [A_eq1]; try rfl) t d).trans
    (by unfold Dat.fetched Dat.blockOf blk1; rw [A_eq1]; try rfl)
theorem before1_7 (c : Dev nD) (t : Fin cfg1.N) (d) : (dat1 V c).before 7 t d = blk1 V c 7 t :=
  ((dat1 V c).before_in_eq_fetched 7 rfl (fun _ => rfl) (fun _ _ _ => rfl)
    (fun t => by rw [show (dat1 V c).after 7 t = blk1 V c 7 t by dsimp only [dat1]]; unfold Dat.blockOf blk1; rw [A_eq1]; try rfl) t d).trans
    (by unfold Dat.fetched Dat.blockOf blk1; rw [A_eq1]; try rfl)
theorem before1_8 (c : Dev nD) (t : Fin cfg1.N) (d) : (dat1 V c).before 8 t d = blk1 V c 8 t :=
  ((dat1 V c).before_in_eq_fetched 8 rfl (fun _ => rfl) (fun _ _ _ => rfl)
    (fun t => by rw [show (dat1 V c).after 8 t = blk1 V c 8 t by dsimp only [dat1]]; unfold Dat.blockOf blk1; rw [A_eq1]; try rfl) t d).trans
    (by unfold Dat.fetched Dat.blockOf blk1; rw [A_eq1]; try rfl)

/-! ## The body on whole buffers -/

-- the offsets of a whole-buffer access are zero on every axis
private theorem zeros1 : (![0] : Fin 1 → Nat) = fun _ => 0 := by funext a; fin_cases a; rfl
private theorem zeros2 : (![0, 0] : Fin 2 → Nat) = fun _ => 0 := by funext a; fin_cases a <;> rfl

set_option maxHeartbeats 1000000 in
/-- The body on ten whole buffers, the nine operands' holding `x0 … x8` and the result's holding anything: it reads the
    nine, reads the result's buffer once (to no use) and stores the gate of the nine over the whole of it. -/
theorem sound_kernel1 (c : Dev nD) (E : Set ℕ) (i : grid1.Coords) (arg1 : Memref sig .tc .vmem S32x512 .f32) (harg1 : arg1.IsWhole) (arg2 : Memref sig .tc .vmem S512x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S32x512 .f32) (harg10 : arg10.IsWhole)
    (x0 : Vec F S32x512 .f32) (x1 : Vec F S512x512 .f32) (x2 : Vec F S512 .f32) (x3 : Vec F S512 .f32) (x4 : Vec F S512 .f32) (x5 : Vec F S512 .f32) (x6 : Vec F S512 .f32) (x7 : Vec F S512x512 .f32) (x8 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k1_pay1 x0 x1 x2 x3 x5 x6 x4 x7 x8)) -∗ K ⟨⟩))
      ⊢ wp frame (wpE (defs₀ (F := F)) Variants.none c none) E (cc1__gate_kernel i arg1 harg1 arg2 harg2 arg3 harg3 arg4 harg4 arg5 harg5 arg6 harg6 arg7 harg7 arg8 harg8 arg9 harg9 arg10 harg10) K := by
  sl_unfold [cc1__gate_kernel, k1_part1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (fun y => ⟨_, List.mem_singleton_self _,
      View.mem_set_unit_zero (S := S32x512) zeros2 inb_S32x512_S32x512_0_0 y⟩),
    View.canon_unit_zero (S := S32x512) zeros2]
  sl_unfold_run_names
  simp only [View.readAt_eq_ld, View.ld_unit_zero (S := S32x512) zeros2, View.ld_unit_zero (S := S512x512) zeros2,
    View.ld_unit_zero (S := S512) zeros1]

/-! ## The body obligation at the grid point -/

/-- What the body is called with at the grid point: the invariant, the core's debt, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at the grid point: the nine operands' buffers hold their blocks, so the body's triple applies at the
    blocks; the invariant and the core's debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    show (dat1 V c).after 0 t = blk1 V c 0 t by dsimp only [dat1],
    show (dat1 V c).after 1 t = blk1 V c 1 t by dsimp only [dat1],
    show (dat1 V c).after 2 t = blk1 V c 2 t by dsimp only [dat1],
    show (dat1 V c).after 3 t = blk1 V c 3 t by dsimp only [dat1],
    show (dat1 V c).after 4 t = blk1 V c 4 t by dsimp only [dat1],
    show (dat1 V c).after 5 t = blk1 V c 5 t by dsimp only [dat1],
    show (dat1 V c).after 6 t = blk1 V c 6 t by dsimp only [dat1],
    show (dat1 V c).after 7 t = blk1 V c 7 t by dsimp only [dat1],
    show (dat1 V c).after 8 t = blk1 V c 8 t by dsimp only [dat1],
    after1_9]
  unfold gateOut
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Gate

end
-- ==== Proof.Shrink.lean ====
/-
  The third pallas_call: the soft threshold. 64 grid points, each a slab of 128 columns of x; the threshold column
  thr (32 x 512 x 1) is one block, fetched once. Point t stores  min(|x| - thr, 0)  over its slab, thr spread along
  the last axis. Everything here is stated at the contents `V` the region finds in the buffers, and at any float
  instance.
-/
import proofs.«102520_j78245714198911_1_alg».proof.Proof.Gen.KernelIdeal.Launch
import proofs.«102520_j78245714198911_1_alg».proof.Proof.Gen.KernelIdeal.Skeleton
import proofs.«102520_j78245714198911_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Shrink

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it: for windows 0 and 2 the slab
    of columns [128 t, 128 t + 128), for window 1 the whole threshold column. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What point `t` stores into the result's block. -/
def shrinkOut (c : Dev nD) (t : Fin cfg2.N) : Vec F S32x512x128 .f32 :=
  k2_pay1 (blk2 V c 0 t) (blk2 V c 1 t)

/-- The proof data of the third pipeline on core `c`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => shrinkOut V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = shrinkOut V c t := by dsimp only [dat2]

/-! ## What the body finds in its two input buffers -/

/-- The slab of x: at every grid point the current staging buffer of window 0 holds the point's slab. The window
    is fetched at every point, it is an input, never idle and uncut, and the body leaves it as found. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The threshold column: fetched at the first point only, its block index never moves, so at every later point
    the buffer still holds the one block, which the body leaves as found. -/
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d

/-! ## The body's triple -/

/-- The zero offsets of a whole-buffer access, as the constant function. -/
theorem off3_zero : (![0, 0, 0] : Fin 3 → ℕ) = fun _ => 0 := by
  funext a; fin_cases a <;> rfl

set_option maxHeartbeats 1000000 in
/-- The body on whole staging memrefs: the two inputs at contents `x0`, `x1`, the result's buffer at anything. It
    loads both inputs whole, loads the result's buffer (a value it never uses), and stores one payload over the
    whole of the result's buffer; so it ends with the inputs as they were and the result's buffer at the payload.
    A whole-rectangle load reads the contents themselves, and one whole-rectangle store read back is its payload. -/
theorem sound_kernel2 (c : Dev nD) (E : Set ℕ) (i : grid2.Coords)
    (arg0 : Memref sig .tc .vmem S32x512x128 .f32) (harg0 : arg0.IsWhole)
    (arg1 : Memref sig .tc .vmem S32x512x1 .f32) (harg1 : arg1.IsWhole)
    (arg2 : Memref sig .tc .vmem S32x512x128 .f32) (harg2 : arg2.IsWhole)
    (x0 : Vec F S32x512x128 .f32) (x1 : Vec F S32x512x1 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (k2_pay1 x0 x1)) -∗ K ⟨⟩))
      ⊢ wp frame (wpE (defs₀ (F := F)) Variants.none c none) E (cc2__combine_kernel i arg0 harg0 arg1 harg1 arg2 harg2) K := by
  simp only [cc2__combine_kernel_eq_skeleton]; unfold cc2__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero off3_zero inb_S32x512x128_S32x512x128_0_0_0 y⟩),
    View.canon_unit_zero off3_zero, View.readAt_eq_ld, View.readAt_eq_ld]
  show k2_pay1 (View.ld (View.read (Elt F) arg0.view f0) (Rect.unit ![0, 0, 0] S32x512x128.size inb_S32x512x128_S32x512x128_0_0_0))
      (View.ld (View.read (Elt F) arg1.view f1) (Rect.unit ![0, 0, 0] S32x512x1.size inb_S32x512x1_S32x512x1_0_0_0)) = _
  rw [View.ld_unit_zero off3_zero, View.ld_unit_zero off3_zero]

/-! ## The body obligation, at a generic grid point -/

/-- What the body is called with at point `t`, the three windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the input buffers hold the point's slab of x and the threshold column, so the
    body's triple applies at those two blocks; the invariant and what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  unfold shrinkOut
  iintro ⟨HΦ, Ho, ⟨%d0, H0⟩, ⟨%d1, H1⟩, ⟨%d2, H2⟩⟩
  iapply (sound_kernel2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Shrink

end
-- ==== Proof.Fold.lean ====
/-
  The contents of the TensorCore's unscoped buffers at each boundary of @main's four items — the mean's pallas_call,
  the gate's, the host stretch that multiplies the two and adds a unit axis, the soft threshold's —, as a fold from
  the launch memory: a pallas_call leaves its arrays at what its write-backs leave and every other buffer as it was;
  a host stretch leaves what its operations compute. Then what each item finds in the buffers it reads, and that no
  item changes an argument. At any float instance.
-/
import proofs.«102520_j78245714198911_1_alg».proof.Proof.Gen.KernelIdeal.Launch
import proofs.«102520_j78245714198911_1_alg».proof.Proof.Gen.KernelIdeal.Skeleton
import proofs.«102520_j78245714198911_1_alg».proof.Proof.Gen.KernelIdeal.Points
import proofs.«102520_j78245714198911_1_alg».proof.Proof.Mean
import proofs.«102520_j78245714198911_1_alg».proof.Proof.Gate
import proofs.«102520_j78245714198911_1_alg».proof.Proof.Shrink
import Idealize.ShloMosaic.Lib.Pipeline.RegionsLoop
import Idealize.ShloMosaic.Lib.StableHlo.Run
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mean Cert.KernelIdeal.Gate Cert.KernelIdeal.Shrink

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- The same read at the TensorCore's references (what the mean's proof data take). -/
abbrev V0 : (c : Dev nD) → (b : Ref sig .tc) → Buf (Elt F) ((c : Thread nD τ).loc b) := fun c b => W0 m c b

/-- After the mean's pallas_call: its arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the gate's pallas_call. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host stretch: mean times gate, then the unit axis. -/
abbrev W3 : Dev nD → Valuation τ sig (Elt F) := fun c => StableHlo.after hostOps2 (W2 m c)
abbrev V3 : (c : Dev nD) → (b : Ref sig .tc) → Buf (Elt F) ((c : Thread nD τ).loc b) := fun c b => W3 m c b

/-- After the soft threshold's pallas_call: the buffers at the return. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## What each item finds in the buffers it reads -/

/-- The host stretch writes the product and the threshold column only. -/
theorem hostOps2_writes : (hostOps2 : List (HloOp τ sig (Elt F))).Forall fun op =>
    op.writes ⊆ (([main_v2, main_v3] : List (Ref sig .tc)).map (Proc.devRef (τ := τ) .tc)).toFinset := by
  simp only [List.Forall]
  refine ⟨?_, ?_⟩
  · simp only [StableHlo.binary_writes, Finset.singleton_subset_iff, List.mem_toFinset]
    exact List.mem_map_of_mem (by decide)
  · simp only [StableHlo.unary_writes, Finset.singleton_subset_iff, List.mem_toFinset]
    exact List.mem_map_of_mem (by decide)

/-- Every other buffer passes the host stretch unchanged. -/
theorem W3_of (c : Dev nD) (r : Ref sig .tc) (h : r ∉ ([main_v2, main_v3] : List (Ref sig .tc))) :
    W3 m c (Proc.devRef .tc r) = W2 m c (Proc.devRef .tc r) :=
  StableHlo.after_of_writes_sub hostOps2 _ hostOps2_writes h

/-- The mean's pallas_call leaves the mean in `main_v0`. -/
theorem V1_main_v0 (c : Dev nD) : V1 m c main_v0 = (dat0 (V0 m) c).arrAt 1 cfg0.N := W1_arr m c 1
theorem V1_main_arg0 (c : Dev nD) : V1 m c main_arg0 = m ((c : Thread nD τ).loc main_arg0) :=
  (W1_arr m c 0).trans (((dat0 (V0 m) c).arrAt_in 0 rfl _).trans (A_eq0 (V0 m) c 0))
theorem V1_main_arg1 (c : Dev nD) : V1 m c main_arg1 = m ((c : Thread nD τ).loc main_arg1) := W1_of_ne m c main_arg1 (by decide)
theorem V1_main_arg2 (c : Dev nD) : V1 m c main_arg2 = m ((c : Thread nD τ).loc main_arg2) := W1_of_ne m c main_arg2 (by decide)
theorem V1_main_arg3 (c : Dev nD) : V1 m c main_arg3 = m ((c : Thread nD τ).loc main_arg3) := W1_of_ne m c main_arg3 (by decide)
theorem V1_main_arg4 (c : Dev nD) : V1 m c main_arg4 = m ((c : Thread nD τ).loc main_arg4) := W1_of_ne m c main_arg4 (by decide)
theorem V1_main_arg5 (c : Dev nD) : V1 m c main_arg5 = m ((c : Thread nD τ).loc main_arg5) := W1_of_ne m c main_arg5 (by decide)
theorem V1_main_arg6 (c : Dev nD) : V1 m c main_arg6 = m ((c : Thread nD τ).loc main_arg6) := W1_of_ne m c main_arg6 (by decide)
theorem V1_main_arg7 (c : Dev nD) : V1 m c main_arg7 = m ((c : Thread nD τ).loc main_arg7) := W1_of_ne m c main_arg7 (by decide)
theorem V1_main_arg8 (c : Dev nD) : V1 m c main_arg8 = m ((c : Thread nD τ).loc main_arg8) := W1_of_ne m c main_arg8 (by decide)

/-- The gate's pallas_call leaves the gate in `main_v1` and the mean where it was. -/
theorem V2_main_v1 (c : Dev nD) : V2 m c main_v1 = (dat1 (V1 m) c).arrAt 9 cfg1.N := W2_arr m c 9
theorem V2_main_v0 (c : Dev nD) : V2 m c main_v0 = V1 m c main_v0 :=
  (W2_arr m c 0).trans (((dat1 (V1 m) c).arrAt_in 0 rfl _).trans (A_eq1 (V1 m) c 0))
theorem V2_main_arg0 (c : Dev nD) : V2 m c main_arg0 = m ((c : Thread nD τ).loc main_arg0) :=
  (W2_of_ne m c main_arg0 (by decide)).trans (V1_main_arg0 m c)
theorem V2_main_arg1 (c : Dev nD) : V2 m c main_arg1 = m ((c : Thread nD τ).loc main_arg1) :=
  (W2_arr m c 1).trans (((dat1 (V1 m) c).arrAt_in 1 rfl _).trans ((A_eq1 (V1 m) c 1).trans (V1_main_arg1 m c)))
theorem V2_main_arg2 (c : Dev nD) : V2 m c main_arg2 = m ((c : Thread nD τ).loc main_arg2) :=
  (W2_arr m c 2).trans (((dat1 (V1 m) c).arrAt_in 2 rfl _).trans ((A_eq1 (V1 m) c 2).trans (V1_main_arg2 m c)))
theorem V2_main_arg3 (c : Dev nD) : V2 m c main_arg3 = m ((c : Thread nD τ).loc main_arg3) :=
  (W2_arr m c 3).trans (((dat1 (V1 m) c).arrAt_in 3 rfl _).trans ((A_eq1 (V1 m) c 3).trans (V1_main_arg3 m c)))
theorem V2_main_arg4 (c : Dev nD) : V2 m c main_arg4 = m ((c : Thread nD τ).loc main_arg4) :=
  (W2_arr m c 4).trans (((dat1 (V1 m) c).arrAt_in 4 rfl _).trans ((A_eq1 (V1 m) c 4).trans (V1_main_arg4 m c)))
theorem V2_main_arg5 (c : Dev nD) : V2 m c main_arg5 = m ((c : Thread nD τ).loc main_arg5) :=
  (W2_arr m c 5).trans (((dat1 (V1 m) c).arrAt_in 5 rfl _).trans ((A_eq1 (V1 m) c 5).trans (V1_main_arg5 m c)))
theorem V2_main_arg6 (c : Dev nD) : V2 m c main_arg6 = m ((c : Thread nD τ).loc main_arg6) :=
  (W2_arr m c 6).trans (((dat1 (V1 m) c).arrAt_in 6 rfl _).trans ((A_eq1 (V1 m) c 6).trans (V1_main_arg6 m c)))
theorem V2_main_arg7 (c : Dev nD) : V2 m c main_arg7 = m ((c : Thread nD τ).loc main_arg7) :=
  (W2_arr m c 7).trans (((dat1 (V1 m) c).arrAt_in 7 rfl _).trans ((A_eq1 (V1 m) c 7).trans (V1_main_arg7 m c)))
theorem V2_main_arg8 (c : Dev nD) : V2 m c main_arg8 = m ((c : Thread nD τ).loc main_arg8) :=
  (W2_arr m c 8).trans (((dat1 (V1 m) c).arrAt_in 8 rfl _).trans ((A_eq1 (V1 m) c 8).trans (V1_main_arg8 m c)))

/-- The host stretch leaves the threshold column in `main_v3`: the product of mean and gate with a unit axis added. -/
theorem V3_main_v3 (c : Dev nD) :
    (V3 m c main_v3 : (⟨S32x512x1, .f32⟩ : BufTy).Contents (Elt F))
      = broadcastInDim S32x512x1 ![0, 1] bcast_S32x512_S32x512x1_0_1 (mulf (V2 m c main_v0 : (⟨S32x512, .f32⟩ : BufTy).Contents (Elt F)) (V2 m c main_v1)) := by
  show StableHlo.after hostOps2 _ (Proc.devRef .tc main_v3) = _
  after_results
theorem V3_main_arg0 (c : Dev nD) : V3 m c main_arg0 = m ((c : Thread nD τ).loc main_arg0) :=
  (W3_of m c main_arg0 (by decide)).trans (V2_main_arg0 m c)
theorem V3_main_arg1 (c : Dev nD) : V3 m c main_arg1 = m ((c : Thread nD τ).loc main_arg1) :=
  (W3_of m c main_arg1 (by decide)).trans (V2_main_arg1 m c)
theorem V3_main_arg2 (c : Dev nD) : V3 m c main_arg2 = m ((c : Thread nD τ).loc main_arg2) :=
  (W3_of m c main_arg2 (by decide)).trans (V2_main_arg2 m c)
theorem V3_main_arg3 (c : Dev nD) : V3 m c main_arg3 = m ((c : Thread nD τ).loc main_arg3) :=
  (W3_of m c main_arg3 (by decide)).trans (V2_main_arg3 m c)
theorem V3_main_arg4 (c : Dev nD) : V3 m c main_arg4 = m ((c : Thread nD τ).loc main_arg4) :=
  (W3_of m c main_arg4 (by decide)).trans (V2_main_arg4 m c)
theorem V3_main_arg5 (c : Dev nD) : V3 m c main_arg5 = m ((c : Thread nD τ).loc main_arg5) :=
  (W3_of m c main_arg5 (by decide)).trans (V2_main_arg5 m c)
theorem V3_main_arg6 (c : Dev nD) : V3 m c main_arg6 = m ((c : Thread nD τ).loc main_arg6) :=
  (W3_of m c main_arg6 (by decide)).trans (V2_main_arg6 m c)
theorem V3_main_arg7 (c : Dev nD) : V3 m c main_arg7 = m ((c : Thread nD τ).loc main_arg7) :=
  (W3_of m c main_arg7 (by decide)).trans (V2_main_arg7 m c)
theorem V3_main_arg8 (c : Dev nD) : V3 m c main_arg8 = m ((c : Thread nD τ).loc main_arg8) :=
  (W3_of m c main_arg8 (by decide)).trans (V2_main_arg8 m c)

/-- The soft threshold's pallas_call leaves the result in `main_v4`; no item has changed an argument. -/
theorem V4_main_v4 (c : Dev nD) : V4 m c main_v4 = (dat2 (V3 m) c).arrAt 2 cfg2.N := W4_arr m c 2
theorem V4_main_arg0 (c : Dev nD) : V4 m c main_arg0 = m ((c : Thread nD τ).loc main_arg0) :=
  (W4_arr m c 0).trans (((dat2 (V3 m) c).arrAt_in 0 rfl _).trans ((A_eq2 (V3 m) c 0).trans (V3_main_arg0 m c)))
theorem V4_main_arg1 (c : Dev nD) : V4 m c main_arg1 = m ((c : Thread nD τ).loc main_arg1) :=
  (W4_of_ne m c main_arg1 (by decide)).trans (V3_main_arg1 m c)
theorem V4_main_arg2 (c : Dev nD) : V4 m c main_arg2 = m ((c : Thread nD τ).loc main_arg2) :=
  (W4_of_ne m c main_arg2 (by decide)).trans (V3_main_arg2 m c)
theorem V4_main_arg3 (c : Dev nD) : V4 m c main_arg3 = m ((c : Thread nD τ).loc main_arg3) :=
  (W4_of_ne m c main_arg3 (by decide)).trans (V3_main_arg3 m c)
theorem V4_main_arg4 (c : Dev nD) : V4 m c main_arg4 = m ((c : Thread nD τ).loc main_arg4) :=
  (W4_of_ne m c main_arg4 (by decide)).trans (V3_main_arg4 m c)
theorem V4_main_arg5 (c : Dev nD) : V4 m c main_arg5 = m ((c : Thread nD τ).loc main_arg5) :=
  (W4_of_ne m c main_arg5 (by decide)).trans (V3_main_arg5 m c)
theorem V4_main_arg6 (c : Dev nD) : V4 m c main_arg6 = m ((c : Thread nD τ).loc main_arg6) :=
  (W4_of_ne m c main_arg6 (by decide)).trans (V3_main_arg6 m c)
theorem V4_main_arg7 (c : Dev nD) : V4 m c main_arg7 = m ((c : Thread nD τ).loc main_arg7) :=
  (W4_of_ne m c main_arg7 (by decide)).trans (V3_main_arg7 m c)
theorem V4_main_arg8 (c : Dev nD) : V4 m c main_arg8 = m ((c : Thread nD τ).loc main_arg8) :=
  (W4_of_ne m c main_arg8 (by decide)).trans (V3_main_arg8 m c)

end Cert.KernelIdeal.Fold

end
-- ==== Proof.Whole.lean ====
/-
  The whole program's run: @main is the mean's pallas_call, the gate's, a host stretch, the soft threshold's. Each
  pallas_call is entered from every unscoped buffer held at the contents the item before it left, and leaves them at
  the next boundary's contents; so every weakly fair execution terminates without a fault with every unscoped
  buffer at the last boundary's contents. At any float instance.
-/
import proofs.«102520_j78245714198911_1_alg».proof.Proof.Gen.KernelIdeal.Launch
import proofs.«102520_j78245714198911_1_alg».proof.Proof.Gen.KernelIdeal.Skeleton
import proofs.«102520_j78245714198911_1_alg».proof.Proof.Gen.KernelIdeal.Points
import proofs.«102520_j78245714198911_1_alg».proof.Proof.Fold
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Mean Cert.KernelIdeal.Gate Cert.KernelIdeal.Shrink Cert.KernelIdeal.Fold

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a core owes: nothing, at both ends of every pallas_call -/

section Owes

variable {cfg : Cfg sig Λ₀} {c : Dev nD} (dat : Dat τ (Elt F) Unit ℕ (UR sig nD τ) ℕ cfg c)

/-- A core that owes nothing, whatever pairs its waits recorded, owes the proof data's tallies at a position where
    these are zero and the recorded pairs are not bounded. -/
theorem owesAt_of_nothing (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hrec]
  iintro ⟨%W, HO⟩
  iexists W
  isplitr
  · ipureintro; exact fun _ _ => Or.inl trivial
  iexact HO

/-- And back: the tallies being zero, the core owes nothing. -/
theorem nothing_of_owesAt (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

end Owes

/-! ## The proof data of the three pipelines, and the state a core is in between two items -/

/-- No pallas_call of the program has a prefetched table. -/
abbrev adm : (p : Fin 3) → (pcfgs (F := F) p).Adm := fun p => (cfgs p).toPCfg_adm

/-- Every pipeline's proof data, each at the contents its pallas_call finds: the mean's at the launch memory, the
    gate's after the mean, the soft threshold's after the host stretch. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c

abbrev 𝒱₀ : Variants := Variants.none
/-- No core ever owes another anything: no level is assigned. -/
abbrev L : GSem nD τ sig → Finset Unit := fun _ => ∅
abbrev lv : GSem nD τ sig → Unit → ℕ := fun _ _ => 0

/-- What a core holds besides its buffers between two items: its generator register at some state, and owing nothing. -/
abbrev R (c : Dev nD) : sProp 𝕄 :=
  iprop((∃ r, prngReg c r) ∗ ∃ W, owes (c : Thread nD τ) (0 : CellTallies nD τ sig Unit) W)

/-- The state of core `c` at a boundary whose contents are `W`: every unscoped buffer whole at `W c`, beside `R c`. -/
abbrev T (W : Dev nD → Valuation τ sig (Elt F)) (c : Dev nD) : sProp 𝕄 :=
  iprop(StableHlo.held (c : Thread nD τ) (Pipeline.ucRefs τ sig) (W c) ∗ R c)

/-- Neither host operation allocates a buffer. -/
theorem hostOps2_fresh : (hostOps2 : List (HloOp τ sig (Elt F))).Forall fun op => op.fresh = ∅ := by
  simp only [List.Forall]; repeat' constructor

/-- The host stretch (mean times gate, then the unit axis) over every unscoped buffer, from the contents the gate's
    pallas_call leaves. -/
abbrev host2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-! ## The three pallas_calls as segments

Each is entered from every unscoped buffer at the contents of the boundary before it. Its windows' arrays are taken
out of those buffers, the generator register goes into the invariant, the other unscoped buffers go round the
region; at the exit the arrays come back at what the write-backs left and the buffers are whole again at the next
boundary's contents. -/

set_option backward.isDefEq.respectTransparency.types false in
/-- The mean's pallas_call. Its invariant carries the scratch accumulator from one grid point to the next, so the
    two ends of the invariant are reached through `hin0` and `hout0`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre := T (W0 m)
  post := T (W1 m)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have harr := Pipeline.arrays_of_unscopedBufs (p := 0) (pcfgs (F := F)) adm (pdats m) launch0.win launch0.arr_whole c
      ((pdats m 0 c).share_full fun _ => rfl) (V0 m c) fun _ => rfl
    rw [Pipeline.unscopedBufs_held] at harr
    iintro ⟨⟨Hbufs, Hreg, Howe⟩, -, -⟩
    ihave Hsp := harr $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · iapply (owesAt_of_nothing (pdats m 0 c) 0 rfl rfl); iexact Howe
    isplitl [Hreg]; · iexact Hreg
    iexact Hrest
  hin c := by
    have hfirst : Pipeline.ΦA spec0 c ⊢ (pdats m 0 c).Φ 0 := hin0 (V0 m) c
    unfold Pipeline.ΦA at hfirst
    iintro ⟨Hreg, -, Hsc⟩
    iapply hfirst
    isplitl [Hsc]; · iexact Hsc
    iexact Hreg
  hout c := by
    rw [Pipeline.ownSems0_none]
    have hlast : (pdats m 0 c).Φ (Fin.last _) ⊢ Pipeline.ΦA spec0 c := hout0 (V0 m) c
    unfold Pipeline.ΦA at hlast
    iintro Hinv
    ihave Hgive := hlast $$ Hinv
    icases Hgive with ⟨Hsc, Hreg⟩
    isplitl [Hreg]; · iexact Hreg
    isplitr; · iempintro
    iexact Hsc
  hexit c := by
    have hback := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hback
    iintro ⟨Harr, Howe, Hreg, Hrest⟩
    imodintro
    isplitl [Harr Hrest]
    · iapply hback; isplitl [Harr] <;> iassumption
    isplitl [Hreg]; · iexact Hreg
    iapply (nothing_of_owesAt (pdats m 0 c) (Fin.last _) rfl); iexact Howe

set_option backward.isDefEq.respectTransparency.types false in
/-- The gate's pallas_call: one grid point, nothing carried, so its invariant is the class's at both ends. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre := T (W1 m)
  post := T (W2 m)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have harr := Pipeline.arrays_of_unscopedBufs (p := 1) (pcfgs (F := F)) adm (pdats m) launch1.win launch1.arr_whole c
      ((pdats m 1 c).share_full fun _ => rfl) (V1 m c) fun _ => rfl
    rw [Pipeline.unscopedBufs_held] at harr
    iintro ⟨⟨Hbufs, Hreg, Howe⟩, -, -⟩
    ihave Hsp := harr $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · iapply (owesAt_of_nothing (pdats m 1 c) 0 rfl rfl); iexact Howe
    isplitl [Hreg]; · iexact Hreg
    iexact Hrest
  hin c := by
    rw [show (pdats m 1 c).Φ 0 = Pipeline.ΦA spec1 c from rfl]
    unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]
    unfold Pipeline.ΦA
    iintro ⟨Hsc, Hreg⟩
    isplitl [Hreg]; · iexact Hreg
    isplitr; · iempintro
    iexact Hsc
  hexit c := by
    have hback := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hback
    iintro ⟨Harr, Howe, Hreg, Hrest⟩
    imodintro
    isplitl [Harr Hrest]
    · iapply hback; isplitl [Harr] <;> iassumption
    isplitl [Hreg]; · iexact Hreg
    iapply (nothing_of_owesAt (pdats m 1 c) (Fin.last _) rfl); iexact Howe

set_option backward.isDefEq.respectTransparency.types false in
/-- The soft threshold's pallas_call, entered from what the host stretch leaves; nothing carried between its grid points. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre := T (W3 m)
  post := T (W4 m)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have harr := Pipeline.arrays_of_unscopedBufs (p := 2) (pcfgs (F := F)) adm (pdats m) launch2.win launch2.arr_whole c
      ((pdats m 2 c).share_full fun _ => rfl) (V3 m c) fun _ => rfl
    rw [Pipeline.unscopedBufs_held] at harr
    iintro ⟨⟨Hbufs, Hreg, Howe⟩, -, -⟩
    ihave Hsp := harr $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · iapply (owesAt_of_nothing (pdats m 2 c) 0 rfl rfl); iexact Howe
    isplitl [Hreg]; · iexact Hreg
    iexact Hrest
  hin c := by
    rw [show (pdats m 2 c).Φ 0 = Pipeline.ΦA spec2 c from rfl]
    unfold Pipeline.ΦA
    iintro ⟨Hreg, -, Hsc⟩
    isplitl [Hsc]; · iexact Hsc
    iexact Hreg
  hout c := by
    rw [Pipeline.ownSems0_none, show (pdats m 2 c).Φ (Fin.last _) = Pipeline.ΦA spec2 c from rfl]
    unfold Pipeline.ΦA
    iintro ⟨Hsc, Hreg⟩
    isplitl [Hreg]; · iexact Hreg
    isplitr; · iempintro
    iexact Hsc
  hexit c := by
    have hback := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hback
    iintro ⟨Harr, Howe, Hreg, Hrest⟩
    imodintro
    isplitl [Harr Hrest]
    · iapply hback; isplitl [Harr] <;> iassumption
    isplitl [Hreg]; · iexact Hreg
    iapply (nothing_of_owesAt (pdats m 2 c) (Fin.last _) rfl); iexact Howe

/-! ## @main as the four segments, and the launch -/

/-- @main's items in order: the mean's pallas_call, the gate's, the host stretch, the soft threshold's. -/
abbrev segs : List (Pipeline.Seg (pcfgs (F := F)) adm (pdats m) () defs₀ 𝒱₀ L lv) :=
  [ .region (reg0 m), .region (reg1 m), .host (host2 m), .region (reg2 m) ]

/-- @main is the run of those segments: it is the chain of its four items, and so is the segments' run. -/
theorem main_run (c : Dev nD) : main (F := F) c = Pipeline.Seg.run (segs m) := (main_chain c).trans (by chain_rfl)

/-- An unscoped reference of the TensorCore is one of the buffers the state between items holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The state at the return without what the core owes: the buffers at the last boundary's contents, the generator
    register at some state. -/
abbrev Tend (c : Dev nD) : sProp 𝕄 :=
  iprop(StableHlo.held (c : Thread nD τ) (Pipeline.ucRefs τ sig) (W4 m c) ∗ ∃ r, prngReg c r)

/-- The state at the last boundary is that one beside the core owing nothing. -/
theorem T_end (c : Dev nD) :
    T (W4 m) c ⊢ iprop(Tend m c ∗ ∃ W, owes (c : Thread nD τ) (0 : CellTallies nD τ sig Unit) W) := by
  iintro ⟨Hbufs, Hreg, Howe⟩
  isplitl [Hbufs Hreg]
  · isplitl [Hbufs] <;> iassumption
  iexact Howe

set_option backward.isDefEq.respectTransparency.types false in
/-- From any memory with zero counters every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tend m)
    (hch := ⟨fun _ => .rfl, fun _ => .rfl, fun _ => .rfl, fun _ => .rfl, fun c => T_end m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howe, -, Hreg, -⟩, -⟩
      imodintro
      isplitl [Hbufs]; · iexact Hbufs
      isplitl [Hreg]; · iexists _; iexact Hreg
      iexists ∅; iexact Howe)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs] <;> iassumption)
    (hQ := fun s h c => h c)

end Cert.KernelIdeal.Whole

end
-- ==== Proof.MeanValue.lean ====
/-
  The value of the first pallas_call over the extended reals: the array it leaves is the mean of x over its last
  axis as the reference computes it. Thirty-two partial sums of 256 columns, added to zero in order, are the sum
  over all 8192 columns (addition of extended reals is commutative and associative), and the product with 2^-13 is
  the quotient by 8192.
-/
import proofs.«102520_j78245714198911_1_alg».proof.Proof.Gen.ReferenceIdeal.Read
import proofs.«102520_j78245714198911_1_alg».proof.Proof.Mean
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MeanValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen

variable (V : (c : Dev nD) → (b : Ref sig .tc) → Buf (Elt Ideal) ((c : Thread nD τ).loc b))

open Cert.KernelIdeal.Mean

/-! ## The three payloads read at an entry -/

/-- The index the lane sum inserts: entry (p, q) of the result with lane k put back is (p, q, k) of the slab. -/
theorem lift_eq (p : Fin 32) (q : Fin 512) (k : Fin 256) :
    reduces_S32x512x256_S32x512.lift (ix2 p q) k = ix3 p q k :=
  funext fun a => Fin.ext (by match a with | ⟨0, _⟩ => rfl | ⟨1, _⟩ => rfl | ⟨2, _⟩ => rfl)

/-- The reset value is zero at every entry. -/
theorem pay1_apply (p : Fin 32) (q : Fin 512) : (k0_pay1 (F := Ideal)) (ix2 p q) = 0 := by
  unfold k0_pay1
  rw [shapeCast_self]
  exact Ideal.ofBits_zero_f32

/-- One grid point adds to the accumulator's entry the sum of the slab's 256 lanes there. -/
theorem pay2_apply (a : Vec Ideal S32x512 .f32) (s : Vec Ideal S32x512x256 .f32) (p : Fin 32) (q : Fin 512) :
    k0_pay2 (F := Ideal) a s (ix2 p q) = a (ix2 p q) + ∑ k : Fin 256, s (ix3 p q k) := by
  unfold k0_pay2
  rw [shapeCast_self]
  show a (ix2 p q) + multiReduction (F := Ideal) (φ := .f32) .add [2] S32x512 s 0x00000000#32 reduces_S32x512x256_S32x512 (.inl rfl) rfl (ix2 p q) = _
  refine congrArg (a (ix2 p q) + ·) ?_
  refine (Ideal.multiReduction_add_single (φ := .f32) s 0x00000000#32 reduces_S32x512x256_S32x512 (.inl rfl) rfl (ix2 p q)).trans ?_
  exact Finset.sum_congr rfl fun k _ => congrArg s (lift_eq p q k)

/-- The last grid point scales the accumulator's entry by the constant 0x39000000. -/
theorem pay3_apply (a : Vec Ideal S32x512 .f32) (p : Fin 32) (q : Fin 512) :
    k0_pay3 (F := Ideal) a (ix2 p q) = a (ix2 p q) * Ideal.ofBits .f32 0x39000000#32 := rfl

/-! ## The slab of x a grid point reads -/

/-- The first window's block index at point t is (0, 0, t): decided once over the 32 points. -/
theorem slab_index : ∀ t : Fin cfg0.N, win0_0.index t 0 = 0 ∧ win0_0.index t 1 = 0 ∧ win0_0.index t 2 = t.val :=
  (by decide +kernel : ∀ t : Fin grid0.N, win0_0.index t 0 = 0 ∧ win0_0.index t 1 = 0 ∧ win0_0.index t 2 = t.val)

/-- Column j of the slab at point t is column 256 t + j of x. -/
theorem slab_apply (c : Dev nD) (t : Fin cfg0.N) (p : Fin 32) (q : Fin 512) (j : Fin 256) (hk : 256 * t.val + j.val < 8192) :
    slab V c 0 t (ix3 p q j) = V c main_arg0 (ix3 p q ⟨256 * t.val + j.val, hk⟩) := by
  unfold slab
  rw [View.read_apply]
  show V c main_arg0 (((cfg0.win 0).blk t).view.emb (ix3 p q j)) = _
  refine congrArg (V c main_arg0) (funext fun a => Fin.ext ?_)
  obtain ⟨h0, h1, h2⟩ := slab_index t
  match a with
  | ⟨0, _⟩ => show win0_0.index t 0 * 32 + 1 * p.val = p.val; rw [h0]; omega
  | ⟨1, _⟩ => show win0_0.index t 1 * 512 + 1 * q.val = q.val; rw [h1]; omega
  | ⟨2, _⟩ => show win0_0.index t 2 * 256 + 1 * j.val = 256 * t.val + j.val; rw [h2]; omega

/-! ## The accumulator is the sum of the columns met so far -/

/-- The sum of row (p, q) of x over the 256 columns of slab t; zero past the grid. -/
def slabSum (c : Dev nD) (p : Fin 32) (q : Fin 512) (t : ℕ) : EReal :=
  if ht : t < 32 then ∑ j : Fin 256, V c main_arg0 (ix3 p q ⟨256 * t + j.val, by have := j.isLt; omega⟩) else 0

/-- After grid point n the accumulator's entry (p, q) is the sum of the slab sums of points 0 … n, by induction on
    the point. -/
theorem acc_apply (c : Dev nD) (p : Fin 32) (q : Fin 512) : ∀ (n : ℕ) (h : n < cfg0.N),
    accAt V c n h (ix2 p q) = ∑ t ∈ Finset.range (n + 1), slabSum V c p q t
  | 0, h => by
    rw [Finset.sum_range_one]
    show k0_pay2 (F := Ideal) (k0_pay1 (F := Ideal)) (slab V c 0 ⟨0, h⟩) (ix2 p q) = _
    rw [pay2_apply, pay1_apply, zero_add, slabSum, dif_pos (by decide)]
    exact Finset.sum_congr rfl fun j _ => slab_apply V c ⟨0, h⟩ p q j _
  | n + 1, h => by
    have hN : n + 1 < 32 := h
    rw [Finset.sum_range_succ, ← acc_apply c p q n (Nat.lt_of_succ_lt h)]
    show k0_pay2 (F := Ideal) (accAt V c n _) (slab V c 0 ⟨n + 1, h⟩) (ix2 p q) = _
    rw [pay2_apply, slabSum, dif_pos hN]
    exact congrArg (_ + ·) (Finset.sum_congr rfl fun j _ => slab_apply V c ⟨n + 1, h⟩ p q j _)

/-- A sum over 8192 columns is the sum over 32 slabs of the sums over each slab's 256 columns, in any commutative
    monoid. -/
theorem sum_blocks {M : Type} [AddCommMonoid M] (f : Fin 8192 → M) :
    ∑ k : Fin 8192, f k
      = ∑ t : Fin 32, ∑ j : Fin 256, f ⟨256 * t.val + j.val, by have := t.isLt; have := j.isLt; omega⟩ := by
  have e := Equiv.sum_comp (finProdFinEquiv (m := 32) (n := 256)) (f : Fin (32 * 256) → M)
  refine e.symm.trans ((Fintype.sum_prod_type _).trans ?_)
  refine Finset.sum_congr rfl fun t _ => Finset.sum_congr rfl fun j _ => congrArg f (Fin.ext ?_)
  show j.val + 256 * t.val = 256 * t.val + j.val
  omega

/-- After the last point the accumulator's entry is the sum of the whole row of x. -/
theorem acc_last (c : Dev nD) (p : Fin 32) (q : Fin 512) :
    accAt V c 31 (by decide) (ix2 p q) = (∑ k : Fin 8192, V c main_arg0 (ix3 p q k) : EReal) := by
  rw [acc_apply, sum_blocks, ← Fin.sum_univ_eq_sum_range (fun t => slabSum V c p q t) 32]
  refine Finset.sum_congr rfl fun t _ => ?_
  rw [slabSum, dif_pos t.isLt]

/-! ## The two constants, and the mean at an entry -/

/-- The word 0x46000000 denotes 8192. -/
theorem ofBits_8192 : Ideal.ofBits .f32 0x46000000#32 = ((8192 : ℝ) : EReal) := by
  simp [Ideal.ofBits, Ideal.ieee, -EReal.coe_mul]; norm_num

/-- The word 0x39000000 denotes 2^-13, the reciprocal of 8192. -/
theorem ofBits_inv_8192 : Ideal.ofBits .f32 0x39000000#32 = ((1 / 8192 : ℝ) : EReal) := by
  simp [Ideal.ofBits, Ideal.ieee, -EReal.coe_mul]; norm_num

/-- Entry (p, q) of what the last point stores is entry (p, q) of the reference's mean: the whole row's sum times
    2^-13 on one side, zero plus the same sum divided by 8192 on the other. -/
theorem meanOut_apply (c : Dev nD) (p : Fin 32) (q : Fin 512) :
    meanOut V c (ix2 p q) = Cert.ReferenceIdeal.Read.val_main_v3 (F := Ideal) (V c main_arg0) (ix2 p q) := by
  have hidx : ∀ k : Fin 8192, Cert.ReferenceIdeal.Read.idx_main_v1 (ix2 p q) k = ix3 p q k := fun k =>
    funext fun a => Fin.ext (by match a with | ⟨0, _⟩ => rfl | ⟨1, _⟩ => rfl | ⟨2, _⟩ => rfl)
  rw [Cert.ReferenceIdeal.Read.val_main_v3_apply, Cert.ReferenceIdeal.Read.val_main_v1_apply,
    Cert.ReferenceIdeal.Read.val_main_v2_apply, Cert.ReferenceIdeal.Read.val_main_cst_0_apply,
    Cert.ReferenceIdeal.Read.val_main_cst_apply]
  simp only [hidx, Ideal.hostDivf_def, Ideal.ofBits_def, Ideal.ofBits_zero_f32, zero_add]
  show k0_pay3 (F := Ideal) (accAt V c 31 (by decide)) (ix2 p q) = _
  rw [pay3_apply, acc_last, ofBits_8192, ofBits_inv_8192, Ideal.div_coe (by norm_num)]

/-! ## From the one written block to the array -/

/-- The result window's block index is (0, 0) at every point: decided once over the 32 points. -/
theorem out_index : ∀ t : Fin cfg0.N, win0_1.index t 0 = 0 ∧ win0_1.index t 1 = 0 :=
  (by decide +kernel : ∀ t : Fin grid0.N, win0_1.index t 0 = 0 ∧ win0_1.index t 1 = 0)

/-- So its block's offsets in the array are zero. -/
theorem out_off (t : Fin cfg0.N) : (fun a => win0_1.index t a * main_v0.ty.shape.size a) = fun _ => 0 :=
  funext fun a => by
    obtain ⟨h0, h1⟩ := out_index t
    match a with
    | ⟨0, _⟩ => show win0_1.index t 0 * _ = 0; rw [h0, Nat.zero_mul]
    | ⟨1, _⟩ => show win0_1.index t 1 * _ = 0; rw [h1, Nat.zero_mul]

/-- What a write-back of the result window writes is the array `meanOut` read through the window's block, which is
    the whole array at zero offsets. -/
theorem flushed_eq (c : Dev nD) (t : Fin cfg0.N) (hf : (cfg0.win 1).flush t = true) :
    (dat0 V c).flushed 1 t = ((cfg0.win 1).blk t).view.read (Elt Ideal) (meanOut V c) := by
  show (cfg0.win 1).cut (cfg0.grid.coords t) ((dat0 V c).after 1 t) = _
  rw [after0_1]
  exact (Memref.read_access_unit_zero (Elt Ideal) main_v0 (out_off t)
    (fun a => by rw [congrFun (out_off t) a]; exact (Nat.zero_add _).le) (meanOut V c)).symm

/-- The last grid point. -/
abbrev tLast : Fin cfg0.N := ⟨31, by decide⟩

/-- The last point writes back, and its block covers every entry: the array ends holding `meanOut`. -/
theorem arr_last (c : Dev nD) : (dat0 V c).arrAt 1 cfg0.N = meanOut V c :=
  (dat0 V c).arrAt_eq_of_cover 1 (meanOut V c) (flushed_eq V c) fun i =>
    ⟨tLast, (flush0_1 tLast).mpr rfl, by
      show i ∈ ((View.whole main_v0).slice (win0_1.rect tLast)).set
      rw [View.set_slice_whole]
      exact View.mem_set_unit_zero (out_off tLast) _ i⟩

/-- The array the mean's pallas_call leaves is the reference's mean of the x it was given. -/
theorem mean_arr (c : Dev nD) :
    ((dat0 V c).arrAt 1 cfg0.N : (⟨S32x512, .f32⟩ : BufTy).Contents (Elt Ideal))
      = Cert.ReferenceIdeal.Read.val_main_v3 (F := Ideal) (V c main_arg0) :=
  (arr_last V c).trans (funext fun i => by
    obtain ⟨p, q, rfl⟩ : ∃ (p : Fin 32) (q : Fin 512), i = ix2 p q := ⟨i 0, i 1, eq_ix2 i⟩
    exact meanOut_apply V c p q)

end Cert.KernelIdeal.MeanValue

end
-- ==== Proof.GateValue.lean ====
/-
  The value of the second pallas_call over the extended reals: from the reference's mean and the eight parameter
  arrays it leaves the reference's gate. The kernel's matrix products contract the second axis of both operands,
  the reference transposes the weight and contracts its first; the kernel's one logistic operation is the
  reference's 1 / (1 + exp(-z)); the row vectors are spread over the 32 rows on both sides.
-/
import proofs.«102520_j78245714198911_1_alg».proof.Proof.Gen.ReferenceIdeal.Read
import proofs.«102520_j78245714198911_1_alg».proof.Proof.Gate
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

set_option maxRecDepth 16384

noncomputable section

namespace Cert.KernelIdeal.GateValue

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

open Cert.KernelIdeal.Gate
open Idealize.ShloMosaic.ValueIdx
open scoped BigOperators

/-! ## Each operand block is its whole array

The grid has one point and every index map is constantly zero, so a block's element at `y` sits in the array at
`0 * size + 1 * y = y`. -/

theorem blk_0 (c : Dev nD) (t : Fin cfg1.N) :
    (blk1 V c 0 t : S32x512.Idx → EReal) = (V c main_v0 : (⟨S32x512, .f32⟩ : BufTy).Contents (Elt Ideal)) := by
  funext y
  unfold blk1
  rw [View.read_apply]
  refine (cast_eq _ _).trans (congrArg (V c main_v0 : (⟨S32x512, .f32⟩ : BufTy).Contents (Elt Ideal)) (funext fun a => Fin.ext ?_))
  match a with
  | ⟨0, _⟩ => show 0 * 32 + 1 * (y 0).val = (y 0).val; omega
  | ⟨1, _⟩ => show 0 * 512 + 1 * (y 1).val = (y 1).val; omega

theorem blk_1 (c : Dev nD) (t : Fin cfg1.N) :
    (blk1 V c 1 t : S512x512.Idx → EReal) = (V c main_arg1 : (⟨S512x512, .f32⟩ : BufTy).Contents (Elt Ideal)) := by
  funext y
  unfold blk1
  rw [View.read_apply]
  refine (cast_eq _ _).trans (congrArg (V c main_arg1 : (⟨S512x512, .f32⟩ : BufTy).Contents (Elt Ideal)) (funext fun a => Fin.ext ?_))
  match a with
  | ⟨0, _⟩ => show 0 * 512 + 1 * (y 0).val = (y 0).val; omega
  | ⟨1, _⟩ => show 0 * 512 + 1 * (y 1).val = (y 1).val; omega

theorem blk_2 (c : Dev nD) (t : Fin cfg1.N) :
    (blk1 V c 2 t : S512.Idx → EReal) = (V c main_arg2 : (⟨S512, .f32⟩ : BufTy).Contents (Elt Ideal)) := by
  funext y
  unfold blk1
  rw [View.read_apply]
  refine (cast_eq _ _).trans (congrArg (V c main_arg2 : (⟨S512, .f32⟩ : BufTy).Contents (Elt Ideal)) (funext fun a => Fin.ext ?_))
  match a with
  | ⟨0, _⟩ => show 0 * 512 + 1 * (y 0).val = (y 0).val; omega

theorem blk_3 (c : Dev nD) (t : Fin cfg1.N) :
    (blk1 V c 3 t : S512.Idx → EReal) = (V c main_arg3 : (⟨S512, .f32⟩ : BufTy).Contents (Elt Ideal)) := by
  funext y
  unfold blk1
  rw [View.read_apply]
  refine (cast_eq _ _).trans (congrArg (V c main_arg3 : (⟨S512, .f32⟩ : BufTy).Contents (Elt Ideal)) (funext fun a => Fin.ext ?_))
  match a with
  | ⟨0, _⟩ => show 0 * 512 + 1 * (y 0).val = (y 0).val; omega

theorem blk_4 (c : Dev nD) (t : Fin cfg1.N) :
    (blk1 V c 4 t : S512.Idx → EReal) = (V c main_arg4 : (⟨S512, .f32⟩ : BufTy).Contents (Elt Ideal)) := by
  funext y
  unfold blk1
  rw [View.read_apply]
  refine (cast_eq _ _).trans (congrArg (V c main_arg4 : (⟨S512, .f32⟩ : BufTy).Contents (Elt Ideal)) (funext fun a => Fin.ext ?_))
  match a with
  | ⟨0, _⟩ => show 0 * 512 + 1 * (y 0).val = (y 0).val; omega

theorem blk_5 (c : Dev nD) (t : Fin cfg1.N) :
    (blk1 V c 5 t : S512.Idx → EReal) = (V c main_arg5 : (⟨S512, .f32⟩ : BufTy).Contents (Elt Ideal)) := by
  funext y
  unfold blk1
  rw [View.read_apply]
  refine (cast_eq _ _).trans (congrArg (V c main_arg5 : (⟨S512, .f32⟩ : BufTy).Contents (Elt Ideal)) (funext fun a => Fin.ext ?_))
  match a with
  | ⟨0, _⟩ => show 0 * 512 + 1 * (y 0).val = (y 0).val; omega

theorem blk_6 (c : Dev nD) (t : Fin cfg1.N) :
    (blk1 V c 6 t : S512.Idx → EReal) = (V c main_arg6 : (⟨S512, .f32⟩ : BufTy).Contents (Elt Ideal)) := by
  funext y
  unfold blk1
  rw [View.read_apply]
  refine (cast_eq _ _).trans (congrArg (V c main_arg6 : (⟨S512, .f32⟩ : BufTy).Contents (Elt Ideal)) (funext fun a => Fin.ext ?_))
  match a with
  | ⟨0, _⟩ => show 0 * 512 + 1 * (y 0).val = (y 0).val; omega

theorem blk_7 (c : Dev nD) (t : Fin cfg1.N) :
    (blk1 V c 7 t : S512x512.Idx → EReal) = (V c main_arg7 : (⟨S512x512, .f32⟩ : BufTy).Contents (Elt Ideal)) := by
  funext y
  unfold blk1
  rw [View.read_apply]
  refine (cast_eq _ _).trans (congrArg (V c main_arg7 : (⟨S512x512, .f32⟩ : BufTy).Contents (Elt Ideal)) (funext fun a => Fin.ext ?_))
  match a with
  | ⟨0, _⟩ => show 0 * 512 + 1 * (y 0).val = (y 0).val; omega
  | ⟨1, _⟩ => show 0 * 512 + 1 * (y 1).val = (y 1).val; omega

theorem blk_8 (c : Dev nD) (t : Fin cfg1.N) :
    (blk1 V c 8 t : S512.Idx → EReal) = (V c main_arg8 : (⟨S512, .f32⟩ : BufTy).Contents (Elt Ideal)) := by
  funext y
  unfold blk1
  rw [View.read_apply]
  refine (cast_eq _ _).trans (congrArg (V c main_arg8 : (⟨S512, .f32⟩ : BufTy).Contents (Elt Ideal)) (funext fun a => Fin.ext ?_))
  match a with
  | ⟨0, _⟩ => show 0 * 512 + 1 * (y 0).val = (y 0).val; omega

/-! ## The kernel's matrix product at an entry

Both operands are contracted along their second axis: entry `(p, q)` of the product is `∑ k, A (p, k) * W (q, k)`. -/

theorem klhs_0 (i : S32x512.Idx) (q : dot_S32x512_S512x512_S32x512_1_1_0_0_n_n.contr.Idx) :
    (dot_S32x512_S512x512_S32x512_1_1_0_0_n_n.lhsIdx i q 0).val = (i 0).val := by
  unfold DotDims.lhsIdx
  rw [dif_neg (show ¬(0 : Fin S32x512.rank) ∈ dot_S32x512_S512x512_S32x512_1_1_0_0_n_n.lhsBatch by decide), dif_pos (show (0 : Fin S32x512.rank) ∈ dot_S32x512_S512x512_S32x512_1_1_0_0_n_n.lhsNonContracting by decide)]
  rfl
theorem klhs_1 (i : S32x512.Idx) (q : dot_S32x512_S512x512_S32x512_1_1_0_0_n_n.contr.Idx) :
    (dot_S32x512_S512x512_S32x512_1_1_0_0_n_n.lhsIdx i q 1).val = (q ⟨0, by decide⟩).val :=
  dot_S32x512_S512x512_S32x512_1_1_0_0_n_n.lhsIdx_val_of_single rfl i q
theorem krhs_0 (i : S32x512.Idx) (q : dot_S32x512_S512x512_S32x512_1_1_0_0_n_n.contr.Idx) :
    (dot_S32x512_S512x512_S32x512_1_1_0_0_n_n.rhsIdx i q 0).val = (i 1).val := by
  unfold DotDims.rhsIdx
  rw [dif_neg (show ¬(0 : Fin S512x512.rank) ∈ dot_S32x512_S512x512_S32x512_1_1_0_0_n_n.rhsBatch by decide), dif_pos (show (0 : Fin S512x512.rank) ∈ dot_S32x512_S512x512_S32x512_1_1_0_0_n_n.rhsNonContracting by decide)]
  rfl
theorem krhs_1 (i : S32x512.Idx) (q : dot_S32x512_S512x512_S32x512_1_1_0_0_n_n.contr.Idx) :
    (dot_S32x512_S512x512_S32x512_1_1_0_0_n_n.rhsIdx i q 1).val = (q ⟨0, by decide⟩).val :=
  dot_S32x512_S512x512_S32x512_1_1_0_0_n_n.rhsIdx_val_of_single rfl i q

theorem kmatmul_apply (A : FVec Ideal S32x512 .bf16) (W : FVec Ideal S512x512 .bf16) (p : Fin 32) (q : Fin 512) :
    matmul dot_S32x512_S512x512_S32x512_1_1_0_0_n_n none A W (constant (F := Ideal) S32x512 .f32 0x00000000#32) (ix2 p q)
      = ∑ k : Fin 512, A (ix2 p k) * W (ix2 q k) := by
  simp only [matmul]
  rw [Ideal.matmul_constant_zero_apply, ← Equiv.sum_comp (ValueIdx.contrEquiv1 dot_S32x512_S512x512_S32x512_1_1_0_0_n_n 512 rfl rfl).symm]
  refine Finset.sum_congr rfl fun k _ => ?_
  have hk := ValueIdx.contrEquiv1_symm_val dot_S32x512_S512x512_S32x512_1_1_0_0_n_n 512 rfl rfl k
  have el : dot_S32x512_S512x512_S32x512_1_1_0_0_n_n.lhsIdx (ix2 p q) ((ValueIdx.contrEquiv1 dot_S32x512_S512x512_S32x512_1_1_0_0_n_n 512 rfl rfl).symm k) = ix2 p k := funext fun a => Fin.ext (by
    match a with
    | ⟨0, _⟩ => exact klhs_0 _ _
    | ⟨1, _⟩ => exact (klhs_1 _ _).trans hk)
  have er : dot_S32x512_S512x512_S32x512_1_1_0_0_n_n.rhsIdx (ix2 p q) ((ValueIdx.contrEquiv1 dot_S32x512_S512x512_S32x512_1_1_0_0_n_n 512 rfl rfl).symm k) = ix2 q k := funext fun a => Fin.ext (by
    match a with
    | ⟨0, _⟩ => exact krhs_0 _ _
    | ⟨1, _⟩ => exact (krhs_1 _ _).trans hk)
  rw [el, er]

/-! ## The gate as one function of its operands

For a row `p` and a hidden unit `k`: the first product plus its bias, batch-normalised, through relu; then the
second product plus its bias through the logistic function. The small constant inside the inverse square root and
the zero of the relu stay as their float words: both sides carry the same ones. -/

/-- Hidden unit `k` of row `p`: `max (γ_k ((Σ_j a_pj W1_kj + b1_k) - μ_k) · rsqrt (σ²_k + ε) + β_k) 0`. -/
def hidden (a : S32x512.Idx → EReal) (w1 : S512x512.Idx → EReal) (b1 g mu var be : S512.Idx → EReal)
    (p : Fin 32) (k : Fin 512) : EReal :=
  max (g (ix1 k) * ((∑ j : Fin 512, a (ix2 p j) * w1 (ix2 k j)) + b1 (ix1 k) - mu (ix1 k))
        * Ideal.rsqrt (var (ix1 k) + Ideal.ofBits .f32 0x3727C5AC#32) + be (ix1 k))
      (Ideal.ofBits .f32 0x00000000#32)

/-- Entry `(p, q)` of the gate: the logistic function of `Σ_k hidden_pk W2_qk + b2_q`. -/
def gate (a : S32x512.Idx → EReal) (w1 : S512x512.Idx → EReal) (b1 g mu var be : S512.Idx → EReal)
    (w2 : S512x512.Idx → EReal) (b2 : S512.Idx → EReal) (p : Fin 32) (q : Fin 512) : EReal :=
  Ideal.logistic ((∑ k : Fin 512, hidden a w1 b1 g mu var be p k * w2 (ix2 q k)) + b2 (ix1 q))

/-! ## The kernel's payload at an entry -/

/-- A vector of length 512 laid out as one row and spread over the 32 rows reads, at `(p, q)`, the vector at `q`. -/
theorem spread_apply (v : FVec Ideal S512 .f32) (p : Fin 32) (q : Fin 512) :
    broadcastTo S32x512 (shapeCast S1x512 v shapeCasts_S512_S1x512) broadcasts_S1x512_S32x512 (ix2 p q) = v (ix1 q) := by
  rw [broadcastTo_1b_ab_apply, shapeCast_a_1a_apply]

theorem rsqrt_apply' {s : Shape} (x : FVec Ideal s .f32) (i : s.Idx) : rsqrt x i = Ideal.rsqrt (x i) := rfl
theorem logistic_apply' {s : Shape} (x : FVec Ideal s .f32) (i : s.Idx) : logistic x i = Ideal.logistic (x i) := rfl

theorem pay_apply (a : Vec Ideal S32x512 .f32) (w1 : Vec Ideal S512x512 .f32) (b1 g mu var be : Vec Ideal S512 .f32)
    (w2 : Vec Ideal S512x512 .f32) (b2 : Vec Ideal S512 .f32) (p : Fin 32) (q : Fin 512) :
    (k1_pay1 (F := Ideal) a w1 b1 g mu var be w2 b2) (ix2 p q) = gate a w1 b1 g mu var be w2 b2 p q := by
  unfold k1_pay1 gate hidden
  simp only [logistic_apply', addf_apply, subf_apply, mulf_apply, maximumf_apply, truncf_apply, kmatmul_apply, spread_apply,
    shapeCast_self, rsqrt_apply', broadcast_apply]
  rfl

/-! ## The reference at an entry

The reference spreads each vector by two broadcasts, transposes each weight and contracts its first axis: read at
`(p, k)` these are the vector at `k` and the weight at `(k, j)`. -/

section Reference
open Cert.ReferenceIdeal.Read

theorem e_v6_v7 (p : Fin 32) (k : Fin 512) : idx_main_v6 (idx_main_v7 (ix2 p k)) = ix1 k :=
  funext fun a => Fin.ext (by match a with | ⟨0, _⟩ => rfl)
theorem e_v9_v10 (p : Fin 32) (k : Fin 512) : idx_main_v9 (idx_main_v10 (ix2 p k)) = ix1 k :=
  funext fun a => Fin.ext (by match a with | ⟨0, _⟩ => rfl)
theorem e_v12_v13 (p : Fin 32) (k : Fin 512) : idx_main_v12 (idx_main_v13 (ix2 p k)) = ix1 k :=
  funext fun a => Fin.ext (by match a with | ⟨0, _⟩ => rfl)
theorem e_v18_v19 (p : Fin 32) (k : Fin 512) : idx_main_v18 (idx_main_v19 (ix2 p k)) = ix1 k :=
  funext fun a => Fin.ext (by match a with | ⟨0, _⟩ => rfl)
theorem e_v21_v22 (p : Fin 32) (k : Fin 512) : idx_main_v21 (idx_main_v22 (ix2 p k)) = ix1 k :=
  funext fun a => Fin.ext (by match a with | ⟨0, _⟩ => rfl)
theorem e_v27_v28 (p : Fin 32) (k : Fin 512) : idx_main_v27 (idx_main_v28 (ix2 p k)) = ix1 k :=
  funext fun a => Fin.ext (by match a with | ⟨0, _⟩ => rfl)
theorem e_l5 (p : Fin 32) (k j : Fin 512) : lidx_main_v5 (ix2 p k) j = ix2 p j :=
  funext fun a => Fin.ext (by match a with | ⟨0, _⟩ => rfl | ⟨1, _⟩ => rfl)
theorem e_r5 (p : Fin 32) (k j : Fin 512) : idx_main_v4 (ridx_main_v5 (ix2 p k) j) = ix2 k j :=
  funext fun a => Fin.ext (by match a with | ⟨0, _⟩ => rfl | ⟨1, _⟩ => rfl)
theorem e_l26 (p : Fin 32) (q k : Fin 512) : lidx_main_v26 (ix2 p q) k = ix2 p k :=
  funext fun a => Fin.ext (by match a with | ⟨0, _⟩ => rfl | ⟨1, _⟩ => rfl)
theorem e_r26 (p : Fin 32) (q k : Fin 512) : idx_main_v25 (ridx_main_v26 (ix2 p q) k) = ix2 q k :=
  funext fun a => Fin.ext (by match a with | ⟨0, _⟩ => rfl | ⟨1, _⟩ => rfl)

/-- The reference's relu stage at `(p, k)` is hidden unit `k` of row `p`, of the reference's mean and the parameters. -/
theorem ref_hidden (x0 : (⟨S32x512x8192, .f32⟩ : BufTy).Contents (Elt Ideal)) (x1 : (⟨S512x512, .f32⟩ : BufTy).Contents (Elt Ideal))
    (x2 x3 x4 x5 x6 : (⟨S512, .f32⟩ : BufTy).Contents (Elt Ideal)) (p : Fin 32) (k : Fin 512) :
    val_main_v24 (F := Ideal) x0 x1 x2 x3 x4 x5 x6 (ix2 p k)
      = hidden (val_main_v3 (F := Ideal) x0) x1 x2 x3 x5 x6 x4 p k := by
  rw [val_main_v24_apply, val_main_v23_apply, val_main_v20_apply, val_main_v14_apply, val_main_v11_apply,
    val_main_v8_apply, val_main_v5_apply, val_main_v7_apply, val_main_v6_apply, val_main_v10_apply, val_main_v9_apply,
    val_main_v13_apply, val_main_v12_apply, val_main_v19_apply, val_main_v18_apply, val_main_v17_apply, val_main_v16_apply,
    val_main_v15_apply, val_main_cst_1_apply, val_main_v22_apply, val_main_v21_apply, val_main_call0_v0_apply,
    val_main_call0_cst_apply]
  simp only [val_main_v4_apply, e_l5, e_r5, e_v6_v7, e_v9_v10, e_v12_v13, e_v18_v19, e_v21_v22]
  rfl

/-- The reference's gate at `(p, q)`. -/
theorem ref_gate (x0 : (⟨S32x512x8192, .f32⟩ : BufTy).Contents (Elt Ideal)) (x1 : (⟨S512x512, .f32⟩ : BufTy).Contents (Elt Ideal))
    (x2 x3 x4 x5 x6 : (⟨S512, .f32⟩ : BufTy).Contents (Elt Ideal)) (x7 : (⟨S512x512, .f32⟩ : BufTy).Contents (Elt Ideal))
    (x8 : (⟨S512, .f32⟩ : BufTy).Contents (Elt Ideal)) (p : Fin 32) (q : Fin 512) :
    val_main_v35 (F := Ideal) x0 x1 x2 x3 x4 x5 x6 x7 x8 (ix2 p q)
      = gate (val_main_v3 (F := Ideal) x0) x1 x2 x3 x5 x6 x4 x7 x8 p q := by
  rw [val_main_v35_apply, val_main_v34_apply, val_main_cst_3_apply, val_main_v33_apply, val_main_v32_apply,
    val_main_cst_2_apply, val_main_v31_apply, val_main_v30_apply, val_main_v29_apply, val_main_v26_apply,
    val_main_v28_apply, val_main_v27_apply]
  simp only [val_main_v25_apply, e_l26, e_r26, e_v27_v28, ref_hidden]
  unfold gate
  rw [Ideal.logistic]
  simp only [Ideal.hostDivf_def, Ideal.addf_def, Ideal.hostUnary_exp_def, Ideal.hostNegf_def, Ideal.negf_def,
    Ideal.ofBits_def, Ideal.ofBits_one_f32]

end Reference

/-! ## The result array after the one point -/

/-- The one grid point writes the whole result array back: it ends holding the gate of the operand blocks. -/
theorem arr_eq_gateOut (c : Dev nD) :
    ((dat1 V c).arrAt 9 cfg1.N : (⟨S32x512, .f32⟩ : BufTy).Contents (Elt Ideal)) = gateOut V c t1_0 := by
  refine (dat1 V c).arrAt_eq_of_cover 9 (gateOut V c t1_0) (fun t _ => ?_) (fun i => ⟨t1_0, flush1_9 t1_0, ?_⟩)
  · rw [fin_N1 t]
    show (cfg1.win 9).cut (cfg1.grid.coords t1_0) ((dat1 V c).after 9 t1_0) = _
    rw [after1_9]
    generalize gateOut V c t1_0 = G
    funext y
    rw [View.read_apply]
    refine Eq.trans (congrArg G (funext fun a => Fin.ext ?_)) (cast_eq rfl _).symm
    match a with
    | ⟨0, _⟩ => show (y 0).val = 0 * 32 + 1 * (y 0).val; omega
    | ⟨1, _⟩ => show (y 1).val = 0 * 512 + 1 * (y 1).val; omega
  · show i ∈ ((View.whole main_v1).slice (win1_9.rect t1_0)).set
    rw [View.set_slice_whole, Rect.mem_set_unit]
    intro a
    match a with
    | ⟨0, _⟩ => exact ⟨Nat.zero_le _, by show (i 0).val < 0 * 32 + 32; have h : (i 0).val < 32 := (i 0).isLt; omega⟩
    | ⟨1, _⟩ => exact ⟨Nat.zero_le _, by show (i 1).val < 0 * 512 + 512; have h : (i 1).val < 512 := (i 1).isLt; omega⟩

/-- Entered with the reference's mean in `main_v0` and the parameters in their argument buffers, the gate's
    pallas_call leaves the reference's gate. -/
theorem gate_arr (c : Dev nD) (x0 : (⟨S32x512x8192, .f32⟩ : BufTy).Contents (Elt Ideal)) (x1 : (⟨S512x512, .f32⟩ : BufTy).Contents (Elt Ideal)) (x2 x3 x4 x5 x6 : (⟨S512, .f32⟩ : BufTy).Contents (Elt Ideal)) (x7 : (⟨S512x512, .f32⟩ : BufTy).Contents (Elt Ideal)) (x8 : (⟨S512, .f32⟩ : BufTy).Contents (Elt Ideal))
    (h0 : (V c main_v0 : (⟨S32x512, .f32⟩ : BufTy).Contents (Elt Ideal)) = Cert.ReferenceIdeal.Read.val_main_v3 (F := Ideal) x0)
    (h1 : (V c main_arg1 : (⟨S512x512, .f32⟩ : BufTy).Contents (Elt Ideal)) = x1)
    (h2 : (V c main_arg2 : (⟨S512, .f32⟩ : BufTy).Contents (Elt Ideal)) = x2)
    (h3 : (V c main_arg3 : (⟨S512, .f32⟩ : BufTy).Contents (Elt Ideal)) = x3)
    (h4 : (V c main_arg4 : (⟨S512, .f32⟩ : BufTy).Contents (Elt Ideal)) = x4)
    (h5 : (V c main_arg5 : (⟨S512, .f32⟩ : BufTy).Contents (Elt Ideal)) = x5)
    (h6 : (V c main_arg6 : (⟨S512, .f32⟩ : BufTy).Contents (Elt Ideal)) = x6)
    (h7 : (V c main_arg7 : (⟨S512x512, .f32⟩ : BufTy).Contents (Elt Ideal)) = x7)
    (h8 : (V c main_arg8 : (⟨S512, .f32⟩ : BufTy).Contents (Elt Ideal)) = x8) :
    ((dat1 V c).arrAt 9 cfg1.N : (⟨S32x512, .f32⟩ : BufTy).Contents (Elt Ideal))
      = Cert.ReferenceIdeal.Read.val_main_v35 (F := Ideal) x0 x1 x2 x3 x4 x5 x6 x7 x8 := by
  rw [arr_eq_gateOut]
  funext i
  obtain ⟨p, q, rfl⟩ : ∃ (p : Fin 32) (q : Fin 512), i = ix2 p q := ⟨i 0, i 1, eq_ix2 i⟩
  rw [ref_gate]
  unfold gateOut
  rw [blk_0, blk_1, blk_2, blk_3, blk_4, blk_5, blk_6, blk_7, blk_8, h0, h1, h2, h3, h4, h5, h6, h7, h8]
  exact pay_apply _ _ _ _ _ _ _ _ _ p q

end Cert.KernelIdeal.GateValue

end
-- ==== Proof.ShrinkValue.lean ====
/-
  The value of the third pallas_call over the extended reals: from x and the reference's threshold column it leaves
  the reference's result, min(|x| - thr, 0) with thr spread along the last axis. The 64 slabs of 128 columns tile
  the array, and each slab is the restriction of that one function.
-/
import proofs.«102520_j78245714198911_1_alg».proof.Proof.Gen.ReferenceIdeal.Read
import proofs.«102520_j78245714198911_1_alg».proof.Proof.Shrink
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ShrinkValue

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

open Cert.KernelIdeal.Shrink

/-- The three index maps over the 64 grid points: the slabs of x and of the result move together along the last
    axis, one slab per point; the threshold column stays. -/
theorem slab_index : ∀ t : Fin cfg2.N,
    win2_0.index t (0 : Fin 3) = 0 ∧ win2_0.index t (1 : Fin 3) = 0 ∧ win2_0.index t (2 : Fin 3) = t.val
    ∧ win2_1.index t (0 : Fin 3) = 0 ∧ win2_1.index t (1 : Fin 3) = 0 ∧ win2_1.index t (2 : Fin 3) = 0
    ∧ win2_2.index t (0 : Fin 3) = 0 ∧ win2_2.index t (1 : Fin 3) = 0 ∧ win2_2.index t (2 : Fin 3) = t.val :=
  (by decide +kernel : ∀ t : Fin grid2.N, _)

theorem points64 : cfg2.N = 64 := by decide

/-- The soft threshold of one slab, read at an index: the threshold column is read at the row's one entry. -/
theorem soft_apply (xs : Vec Ideal S32x512x128 .f32) (th : Vec Ideal S32x512x1 .f32) (j : S32x512x128.Idx) (k : S32x512x1.Idx)
    (hk0 : (k 0).val = (j 0).val) (hk1 : (k 1).val = (j 1).val) :
    k2_pay1 xs th j = FloatOps.minimumf (FloatOps.subf (FloatOps.absf (xs j)) (th k)) (FloatOps.ofBits .f32 0x00000000#32) := by
  show FloatOps.minimumf (FloatOps.subf (FloatOps.absf (xs j)) (broadcastTo (α := Ideal .f32) S32x512x128 (shapeCast (α := Ideal .f32) S32x512x1 th shapeCasts_S32x512x1_S32x512x1) broadcasts_S32x512x1_S32x512x128 j)) (Scalar.ofBits .f32 0x00000000#32) = _
  rw [shapeCast_self, broadcastTo_apply (α := Ideal .f32) th broadcasts_S32x512x1_S32x512x128 j k (fun a => match a with
    | ⟨0, _⟩ => by show (k 0).val = if (32 : Nat) = 1 then 0 else (j 0).val; rw [if_neg (by decide)]; exact hk0
    | ⟨1, _⟩ => by show (k 1).val = if (512 : Nat) = 1 then 0 else (j 1).val; rw [if_neg (by decide)]; exact hk1
    | ⟨2, _⟩ => by show (k 2).val = if (1 : Nat) = 1 then 0 else (j 2).val; rw [if_pos rfl]; have h2 : (k 2).val < 1 := (k 2).isLt; omega)]

/-- The reference's result at an index: the soft threshold of x there against the threshold column's entry of the row. -/
theorem result_apply (x0 : (⟨S32x512x8192, .f32⟩ : BufTy).Contents (Elt Ideal)) (x1 : (⟨S512x512, .f32⟩ : BufTy).Contents (Elt Ideal)) (x2 x3 x4 x5 x6 : (⟨S512, .f32⟩ : BufTy).Contents (Elt Ideal)) (x7 : (⟨S512x512, .f32⟩ : BufTy).Contents (Elt Ideal)) (x8 : (⟨S512, .f32⟩ : BufTy).Contents (Elt Ideal)) (i : S32x512x8192.Idx) :
    Cert.ReferenceIdeal.Read.val_main_v41 (F := Ideal) x0 x1 x2 x3 x4 x5 x6 x7 x8 i
      = FloatOps.minimumf (F := Ideal) (FloatOps.subf (F := Ideal) (FloatOps.absf (F := Ideal) (x0 i)) (Cert.ReferenceIdeal.Read.val_main_v37 (F := Ideal) x0 x1 x2 x3 x4 x5 x6 x7 x8 (Cert.ReferenceIdeal.Read.idx_main_v38 i))) (FloatOps.ofBits (F := Ideal) .f32 0x00000000#32) := by
  rw [Cert.ReferenceIdeal.Read.val_main_v41_apply, Cert.ReferenceIdeal.Read.val_main_v39_apply, Cert.ReferenceIdeal.Read.val_main_v0_apply, Cert.ReferenceIdeal.Read.val_main_v38_apply, Cert.ReferenceIdeal.Read.val_main_v40_apply, Cert.ReferenceIdeal.Read.val_main_cst_4_apply]
  rfl

/-- Point `t`'s slab of x, at an index of the slab, is x at the slab's place in the array: column 128 t + the column
    inside the slab. -/
theorem slab_x (c : Dev nD) (t : Fin cfg2.N) (j : S32x512x128.Idx) (i : S32x512x8192.Idx)
    (h0 : (i 0).val = (j 0).val) (h1 : (i 1).val = (j 1).val) (h2 : (i 2).val = t.val * 128 + (j 2).val) :
    (blk2 V c 0 t : Vec Ideal S32x512x128 .f32) j = (V c main_arg0 : (⟨S32x512x8192, .f32⟩ : BufTy).Contents (Elt Ideal)) i := by
  obtain ⟨a0, a1, a2, -⟩ := slab_index t
  show (V c main_arg0 : (⟨S32x512x8192, .f32⟩ : BufTy).Contents (Elt Ideal)) (((cfg2.win 0).blk t).view.emb j) = _
  refine congrArg _ (funext fun a => Fin.ext ?_)
  match a with
  | ⟨0, _⟩ => show win2_0.index t (0 : Fin 3) * 32 + 1 * (j 0).val = (i 0).val; omega
  | ⟨1, _⟩ => show win2_0.index t (1 : Fin 3) * 512 + 1 * (j 1).val = (i 1).val; omega
  | ⟨2, _⟩ => show win2_0.index t (2 : Fin 3) * 128 + 1 * (j 2).val = (i 2).val; omega

/-- The threshold column is one block at every point: read at an index it is the column there. -/
theorem column_thr (c : Dev nD) (t : Fin cfg2.N) (k : S32x512x1.Idx) :
    (blk2 V c 1 t : Vec Ideal S32x512x1 .f32) k = (V c main_v3 : (⟨S32x512x1, .f32⟩ : BufTy).Contents (Elt Ideal)) k := by
  obtain ⟨-, -, -, b0, b1, b2, -⟩ := slab_index t
  show (V c main_v3 : (⟨S32x512x1, .f32⟩ : BufTy).Contents (Elt Ideal)) (((cfg2.win 1).blk t).view.emb k) = _
  refine congrArg _ (funext fun a => Fin.ext ?_)
  match a with
  | ⟨0, _⟩ => show win2_1.index t (0 : Fin 3) * 32 + 1 * (k 0).val = (k 0).val; omega
  | ⟨1, _⟩ => show win2_1.index t (1 : Fin 3) * 512 + 1 * (k 1).val = (k 1).val; omega
  | ⟨2, _⟩ => show win2_1.index t (2 : Fin 3) * 1 + 1 * (k 2).val = (k 2).val; omega

/-- What point `t` writes back is the reference's result read through the point's slab. -/
theorem wrote_eq (c : Dev nD) (x0 : (⟨S32x512x8192, .f32⟩ : BufTy).Contents (Elt Ideal)) (x1 : (⟨S512x512, .f32⟩ : BufTy).Contents (Elt Ideal)) (x2 x3 x4 x5 x6 : (⟨S512, .f32⟩ : BufTy).Contents (Elt Ideal)) (x7 : (⟨S512x512, .f32⟩ : BufTy).Contents (Elt Ideal)) (x8 : (⟨S512, .f32⟩ : BufTy).Contents (Elt Ideal))
    (h0 : (V c main_arg0 : (⟨S32x512x8192, .f32⟩ : BufTy).Contents (Elt Ideal)) = x0)
    (h3 : (V c main_v3 : (⟨S32x512x1, .f32⟩ : BufTy).Contents (Elt Ideal)) = Cert.ReferenceIdeal.Read.val_main_v37 (F := Ideal) x0 x1 x2 x3 x4 x5 x6 x7 x8)
    (t : Fin cfg2.N) :
    (dat2 V c).flushed 2 t = ((cfg2.win 2).blk t).view.read (Elt Ideal) (Cert.ReferenceIdeal.Read.val_main_v41 (F := Ideal) x0 x1 x2 x3 x4 x5 x6 x7 x8) := by
  show (cfg2.win 2).cut (grid2.coords t) ((dat2 V c).after 2 t) = _
  rw [after2_2]
  obtain ⟨-, -, -, -, -, -, r0, r1, r2⟩ := slab_index t
  funext j
  show k2_pay1 (blk2 V c 0 t) (blk2 V c 1 t) j = Cert.ReferenceIdeal.Read.val_main_v41 (F := Ideal) x0 x1 x2 x3 x4 x5 x6 x7 x8 (((cfg2.win 2).blk t).view.emb j)
  have e0 : ((((cfg2.win 2).blk t).view.emb j : S32x512x8192.Idx) 0).val = (j 0).val := by
    show win2_2.index t (0 : Fin 3) * 32 + 1 * (j 0).val = (j 0).val; omega
  have e1 : ((((cfg2.win 2).blk t).view.emb j : S32x512x8192.Idx) 1).val = (j 1).val := by
    show win2_2.index t (1 : Fin 3) * 512 + 1 * (j 1).val = (j 1).val; omega
  have e2 : ((((cfg2.win 2).blk t).view.emb j : S32x512x8192.Idx) 2).val = t.val * 128 + (j 2).val := by
    show win2_2.index t (2 : Fin 3) * 128 + 1 * (j 2).val = t.val * 128 + (j 2).val; omega
  rw [result_apply, soft_apply _ _ j (Cert.ReferenceIdeal.Read.idx_main_v38 (((cfg2.win 2).blk t).view.emb j)) e0 e1,
    slab_x V c t j _ e0 e1 e2, column_thr V c t, h0, h3]

/-- An index of the array is in point `t`'s slab iff each coordinate is in the slab's range on its axis. -/
theorem mem_slab (t : Fin cfg2.N) (i : S32x512x8192.Idx) :
    i ∈ ((cfg2.win 2).blk t).view.set ↔ ∀ a : Fin 3, win2_2.index t a * S32x512x128.size a ≤ (i a).val ∧ (i a).val < win2_2.index t a * S32x512x128.size a + S32x512x128.size a := by
  show i ∈ ((View.whole main_v4).slice (win2_2.rect t)).set ↔ _
  rw [View.set_slice_whole, Rect.mem_set_unit]
  exact Iff.rfl

/-- The slabs tile the array: column `l` lies in the slab of point `l / 128`. -/
theorem slabs_cover (i : S32x512x8192.Idx) :
    ∃ t : Fin cfg2.N, (cfg2.win 2).flush t = true ∧ i ∈ ((cfg2.win 2).blk t).view.set := by
  have hi0 : (i 0).val < 32 := (i 0).isLt
  have hi1 : (i 1).val < 512 := (i 1).isLt
  have hi2 : (i 2).val < 8192 := (i 2).isLt
  have hN : cfg2.N = 64 := points64
  refine ⟨⟨(i 2).val / 128, by rw [hN]; omega⟩, flush2_2 _, ?_⟩
  obtain ⟨-, -, -, -, -, -, r0, r1, r2⟩ := slab_index ⟨(i 2).val / 128, by rw [hN]; omega⟩
  rw [mem_slab]
  intro a
  match a with
  | ⟨0, _⟩ => show win2_2.index _ (0 : Fin 3) * 32 ≤ (i 0).val ∧ (i 0).val < win2_2.index _ (0 : Fin 3) * 32 + 32; rw [r0]; omega
  | ⟨1, _⟩ => show win2_2.index _ (1 : Fin 3) * 512 ≤ (i 1).val ∧ (i 1).val < win2_2.index _ (1 : Fin 3) * 512 + 512; rw [r1]; omega
  | ⟨2, _⟩ => show win2_2.index _ (2 : Fin 3) * 128 ≤ (i 2).val ∧ (i 2).val < win2_2.index _ (2 : Fin 3) * 128 + 128; rw [r2]; show (i 2).val / 128 * 128 ≤ (i 2).val ∧ (i 2).val < (i 2).val / 128 * 128 + 128; omega

/-- Entered with x in `main_arg0` and the reference's threshold column in `main_v3`, the soft threshold's
    pallas_call leaves the reference's result. -/
theorem shrink_arr (c : Dev nD) (x0 : (⟨S32x512x8192, .f32⟩ : BufTy).Contents (Elt Ideal)) (x1 : (⟨S512x512, .f32⟩ : BufTy).Contents (Elt Ideal)) (x2 x3 x4 x5 x6 : (⟨S512, .f32⟩ : BufTy).Contents (Elt Ideal)) (x7 : (⟨S512x512, .f32⟩ : BufTy).Contents (Elt Ideal)) (x8 : (⟨S512, .f32⟩ : BufTy).Contents (Elt Ideal))
    (h0 : (V c main_arg0 : (⟨S32x512x8192, .f32⟩ : BufTy).Contents (Elt Ideal)) = x0)
    (h3 : (V c main_v3 : (⟨S32x512x1, .f32⟩ : BufTy).Contents (Elt Ideal)) = Cert.ReferenceIdeal.Read.val_main_v37 (F := Ideal) x0 x1 x2 x3 x4 x5 x6 x7 x8) :
    ((dat2 V c).arrAt 2 cfg2.N : (⟨S32x512x8192, .f32⟩ : BufTy).Contents (Elt Ideal))
      = Cert.ReferenceIdeal.Read.val_main_v41 (F := Ideal) x0 x1 x2 x3 x4 x5 x6 x7 x8 :=
  (dat2 V c).arrAt_eq_of_cover 2 (Cert.ReferenceIdeal.Read.val_main_v41 (F := Ideal) x0 x1 x2 x3 x4 x5 x6 x7 x8) (fun t _ => wrote_eq V c x0 x1 x2 x3 x4 x5 x6 x7 x8 h0 h3 t) slabs_cover

end Cert.KernelIdeal.ShrinkValue

end
-- ==== Proof.Stages.lean ====
/-
  The four stages of the kernel's program over the extended reals, each the reference's stage of the same name: the
  mean the first pallas_call leaves, the gate the second leaves when it is given that mean, the threshold column the
  host stretch makes of the two, and the result the third pallas_call leaves when it is given x and that column. Each
  step feeds the one before it into a pallas_call's value lemma through what the fold says the call finds in its
  buffers.
-/
import proofs.«102520_j78245714198911_1_alg».proof.Proof.Fold
import proofs.«102520_j78245714198911_1_alg».proof.Proof.MeanValue
import proofs.«102520_j78245714198911_1_alg».proof.Proof.GateValue
import proofs.«102520_j78245714198911_1_alg».proof.Proof.ShrinkValue

set_option maxRecDepth 16384

noncomputable section

namespace Cert.KernelIdeal.Stages

open Idealize.ShloMosaic Idealize.ShloMosaic.TcCoe Idealize.SL.Sem
open Cert.KernelIdeal Cert.KernelIdeal.Gen Cert.KernelIdeal.Fold

variable (m : (ℓ : Loc nD τ sig) → Buf (Elt Ideal) ℓ) (c : Dev nD)

/-- The first pallas_call leaves the reference's mean of the launched x. -/
theorem mean_stage :
    (V1 m c main_v0 : (⟨S32x512, .f32⟩ : BufTy).Contents (Elt Ideal))
      = Cert.ReferenceIdeal.Read.val_main_v3 (F := Ideal) (m ((c : Thread nD τ).loc main_arg0)) :=
  (V1_main_v0 m c).trans (Cert.KernelIdeal.MeanValue.mean_arr (V0 m) c)

/-- The second leaves the reference's gate. -/
theorem gate_stage :
    (V2 m c main_v1 : (⟨S32x512, .f32⟩ : BufTy).Contents (Elt Ideal))
      = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (V2_main_v1 m c).trans (Cert.KernelIdeal.GateValue.gate_arr (V1 m) c _ _ _ _ _ _ _ _ _ (mean_stage m c)
    (V1_main_arg1 m c) (V1_main_arg2 m c) (V1_main_arg3 m c) (V1_main_arg4 m c) (V1_main_arg5 m c) (V1_main_arg6 m c)
    (V1_main_arg7 m c) (V1_main_arg8 m c))

/-- The host stretch makes the reference's threshold column: the same two operations on the same two arrays. -/
theorem thr_stage :
    (V3 m c main_v3 : (⟨S32x512x1, .f32⟩ : BufTy).Contents (Elt Ideal))
      = Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [V3_main_v3, V2_main_v0, mean_stage, gate_stage]
  rfl

/-- The third leaves the reference's result. -/
theorem result_stage :
    (V4 m c main_v4 : (⟨S32x512x8192, .f32⟩ : BufTy).Contents (Elt Ideal))
      = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (V4_main_v4 m c).trans (Cert.KernelIdeal.ShrinkValue.shrink_arr (V3 m) c _ _ _ _ _ _ _ _ _ (V3_main_arg0 m c) (thr_stage m c))

end Cert.KernelIdeal.Stages

end
-- ==== Proof.WordLevel.Mean.lean ====
/-
  The first pallas_call: the mean of x over its last axis, 8192 long, taken in 32 slabs of 256 columns. A scratch
  accumulator of shape 32 x 512 is reset at the first grid point, receives each slab's row sums, and at the last
  point is scaled by 2^-13 into the result. Everything here is stated at the contents `V` the region finds in
  the buffers, and at any float instance.
-/
import proofs.«102520_j78245714198911_1_alg».proof.Proof.Gen.Kernel.Launch
import proofs.«102520_j78245714198911_1_alg».proof.Proof.Gen.Kernel.Skeleton
import proofs.«102520_j78245714198911_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Mean

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, in closed form over the grid -/

/-- The condition of the reset branch as the body computes it from the grid coordinate. -/
abbrev cond1 (i : grid0.Coords) : Prop :=
  (Scalar.cmpi .ne (Scalar.extui (Scalar.cmpi .eq (BitVec.ofNat 32 (i 0).val) 0#32)) 0#32) = 1#1

/-- The accumulator is reset at the first point only. -/
theorem hcond1 : ∀ t : Fin cfg0.N, cond1 (grid0.coords t) ↔ t.val = 0 :=
  (by decide +kernel : ∀ t : Fin grid0.N, cond1 (grid0.coords t) ↔ t.val = 0)

/-- The result is stored at the last point only. -/
theorem hcond2 : ∀ t : Fin cfg0.N, k0_cond2 (grid0.coords t) = 1#1 ↔ t.val = 31 :=
  (by decide +kernel : ∀ t : Fin grid0.N, k0_cond2 (grid0.coords t) = 1#1 ↔ t.val = 31)

/-- The slab window is live at every point. -/
theorem live0_0 : ∀ t : Fin cfg0.N, cfg0.idle 0 (grid0.coords t) = false := by decide +kernel
/-- The result window is idle before the last point, -/
theorem idle0_1 : ∀ t : Fin cfg0.N, ¬t.val = 31 → cfg0.idle 1 (grid0.coords t) = true := by decide +kernel
/-- is not written back there, -/
theorem noFlush0_1 : ∀ t : Fin cfg0.N, ¬t.val = 31 → (cfg0.win 1).flush t = false := by decide +kernel
/-- and is live at the last point. -/
theorem live0_1 : ∀ t : Fin cfg0.N, t.val = 31 → cfg0.idle 1 (grid0.coords t) = false := by decide +kernel

/-! ## The body on any whole memrefs, case by case -/

theorem hz2 : (![0, 0] : Fin S32x512.rank → Nat) = fun _ => 0 := by
  funext a; fin_cases a <;> rfl

theorem hz3 : (![0, 0, 0] : Fin S32x512x256.rank → Nat) = fun _ => 0 := by
  funext a; fin_cases a <;> rfl

/-- A list of stores into a 32 x 512 buffer whose last store is of the whole buffer covers it. -/
theorem cover_head (w : S32x512.Idx → Elt F .f32) (L : List (View.Piece (Elt F) S32x512 .f32)) (y : S32x512.Idx) :
    ∃ pc ∈ ((⟨Rect.unit ![0, 0] S32x512.size inb_S32x512_S32x512_0_0, w⟩ : View.Piece (Elt F) S32x512 .f32) :: L), y ∈ pc.1.set :=
  ⟨_, List.mem_cons_self, View.mem_set_unit_zero hz2 inb_S32x512_S32x512_0_0 y⟩

set_option maxHeartbeats 1000000 in
/-- At the first point: the accumulator, whatever it held, is set to zero and then receives the slab's row sums. -/
theorem run_first (c : Dev nD) (E : Set ℕ) (i : grid0.Coords)
    (arg1 : Memref sig .tc .vmem S32x512x256 .f32) (harg1 : arg1.IsWhole)
    (arg2 : Memref sig .tc .vmem S32x512 .f32) (harg2 : arg2.IsWhole)
    (arg3 : Memref sig .tc .vmem S32x512 .f32) (harg3 : arg3.IsWhole)
    (hc1 : cond1 i) (hc2 : ¬k0_cond2 i = 1#1)
    (x : Vec F S32x512x256 .f32) (K : PUnit → sProp 𝕄) :
    iprop(owns (c : Thread nD τ) arg1 fullShare x ∗ (∃ d, owns (c : Thread nD τ) arg3 fullShare d)
        ∗ (iprop(owns (c : Thread nD τ) arg1 fullShare x ∗ owns (c : Thread nD τ) arg3 fullShare (k0_pay2 (k0_pay1 (F := F)) x)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f1, %hf1, H1⟩, ⟨%d3, %f3, -, H3⟩, Hk⟩
  subst hf1
  sl_exec (disch := first | exact hc1 | exact hc2)
  sl_step
  iapply Hk
  isplitl [H1]
  · iexists f1; isplitr; · ipureintro; rfl
    iexact H1
  iexists _; isplitr
  swap; · iexact H3
  ipureintro
  sl_unfold_words
  rw [View.read_writes_eq_canon _ _ _ (cover_head _ _), View.canon_cons_unit_zero hz2]
  simp only [View.readAt_eq_ld, View.ld_unit_zero (S := S32x512) hz2, View.ld_unit_zero (S := S32x512x256) hz3,
    View.readCov_unit_zero (S := S32x512) _ hz2]

set_option maxHeartbeats 1000000 in
/-- Between the first point and the last: the accumulator receives the slab's row sums. -/
theorem run_middle (c : Dev nD) (E : Set ℕ) (i : grid0.Coords)
    (arg1 : Memref sig .tc .vmem S32x512x256 .f32) (harg1 : arg1.IsWhole)
    (arg2 : Memref sig .tc .vmem S32x512 .f32) (harg2 : arg2.IsWhole)
    (arg3 : Memref sig .tc .vmem S32x512 .f32) (harg3 : arg3.IsWhole)
    (hc1 : ¬cond1 i) (hc2 : ¬k0_cond2 i = 1#1)
    (x : Vec F S32x512x256 .f32) (a : Vec F S32x512 .f32) (K : PUnit → sProp 𝕄) :
    iprop(owns (c : Thread nD τ) arg1 fullShare x ∗ owns (c : Thread nD τ) arg3 fullShare a
        ∗ (iprop(owns (c : Thread nD τ) arg1 fullShare x ∗ owns (c : Thread nD τ) arg3 fullShare (k0_pay2 a x)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f1, %hf1, H1⟩, ⟨%f3, %hf3, H3⟩, Hk⟩
  subst hf1; subst hf3
  sl_exec (disch := first | exact hc1 | exact hc2)
  sl_step
  iapply Hk
  isplitl [H1]
  · iexists f1; isplitr; · ipureintro; rfl
    iexact H1
  iexists _; isplitr
  swap; · iexact H3
  ipureintro
  sl_unfold_words
  rw [View.read_writes_eq_canon _ _ _ (cover_head _ _), View.canon_cons_unit_zero hz2]
  simp only [View.readAt_eq_ld, View.ld_unit_zero (S := S32x512) hz2, View.ld_unit_zero (S := S32x512x256) hz3,
    View.readCov_unit_zero (S := S32x512) _ hz2]

set_option maxHeartbeats 1000000 in
/-- At the last point: the accumulator receives the slab's row sums, and the result's buffer, whatever it held,
    receives the accumulator times 2^-13. -/
theorem run_last (c : Dev nD) (E : Set ℕ) (i : grid0.Coords)
    (arg1 : Memref sig .tc .vmem S32x512x256 .f32) (harg1 : arg1.IsWhole)
    (arg2 : Memref sig .tc .vmem S32x512 .f32) (harg2 : arg2.IsWhole)
    (arg3 : Memref sig .tc .vmem S32x512 .f32) (harg3 : arg3.IsWhole)
    (hc1 : ¬cond1 i) (hc2 : k0_cond2 i = 1#1)
    (x : Vec F S32x512x256 .f32) (a : Vec F S32x512 .f32) (K : PUnit → sProp 𝕄) :
    iprop(owns (c : Thread nD τ) arg1 fullShare x ∗ (∃ d, owns (c : Thread nD τ) arg2 fullShare d) ∗ owns (c : Thread nD τ) arg3 fullShare a
        ∗ (iprop(owns (c : Thread nD τ) arg1 fullShare x ∗ owns (c : Thread nD τ) arg2 fullShare (k0_pay3 (k0_pay2 a x))
            ∗ owns (c : Thread nD τ) arg3 fullShare (k0_pay2 a x)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f1, %hf1, H1⟩, ⟨%d2, %f2, -, H2⟩, ⟨%f3, %hf3, H3⟩, Hk⟩
  subst hf1; subst hf3
  sl_exec (disch := first | exact hc1 | exact hc2)
  sl_step
  iapply Hk
  isplitl [H1]
  · iexists f1; isplitr; · ipureintro; rfl
    iexact H1
  isplitl [H2]
  · iexists _; isplitr
    swap; · iexact H2
    ipureintro
    sl_unfold_words
    rw [View.read_writes_eq_canon _ _ _ (cover_head _ _), View.canon_cons_unit_zero hz2]
    simp only [View.readAt_eq_ld, View.ld_unit_zero (S := S32x512) hz2, View.ld_unit_zero (S := S32x512x256) hz3,
      View.readCov_unit_zero (S := S32x512) _ hz2]
  iexists _; isplitr
  swap; · iexact H3
  ipureintro
  sl_unfold_words
  rw [View.read_writes_eq_canon _ _ _ (cover_head _ _), View.canon_cons_unit_zero hz2]
  simp only [View.readAt_eq_ld, View.ld_unit_zero (S := S32x512) hz2, View.ld_unit_zero (S := S32x512x256) hz3,
    View.readCov_unit_zero (S := S32x512) _ hz2]

/-! ## The blocks, the accumulator point by point, the proof data -/

variable (V : (c : Dev nD) → (b : Ref sig .tc) → Buf (Elt F) ((c : Thread nD τ).loc b))

/-- Window `w`'s block at grid point `t`, read off its array as the region finds it. For window 0 it is the
    256-column slab of x at columns [256 t, 256 t + 256). -/
def slab (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after grid point `n`: zero plus the row sums of slabs 0 … n, added in that order. -/
def accAt (c : Dev nD) : (n : ℕ) → n < cfg0.N → Vec F S32x512 .f32
  | 0, h => k0_pay2 (k0_pay1 (F := F)) (slab V c 0 ⟨0, h⟩)
  | n + 1, h => k0_pay2 (accAt c n (Nat.lt_of_succ_lt h)) (slab V c 0 ⟨n + 1, h⟩)

/-- What the last grid point stores into the result's block: the full accumulator times 2^-13. -/
def meanOut (c : Dev nD) : Vec F S32x512 .f32 := k0_pay3 (accAt V c 31 (by decide))

/-- The scratch accumulator as a whole memref. -/
abbrev accM : Memref sig .tc .vmem S32x512 .f32 := Memref.whole cc0_scratch0

/-- The region's invariant before grid position `n`: before the first point nothing is known of the scratch; after
    point `n` it holds `accAt n`. Beside the scratch go the core's other scoped buffers that are no staging buffer
    of this call, each at some contents, and the generator register at some state. -/
def PhiAcc (c : Dev nD) : (n : ℕ) → n ≤ cfg0.N → sProp 𝕄
  | 0, _ => Pipeline.ΦA spec0 c
  | n + 1, hn => iprop(iprop(owns (c : Thread nD τ) accM fullShare (accAt V c n hn) ∗ Pipeline.scopedRestBut spec0 c [cc0_scratch0]) ∗ (∃ r, prngReg c r))

/-- The proof data of the first pipeline on core `c`. The result's block is written back at the last point only,
    where the body has stored `meanOut` into it. -/
def dat0 (c : Dev nD) : Dat τ (Elt F) Unit ℕ (UR sig nD τ) ℕ cfg0 c where
  A w := V c (Pipeline.arrRef spec0 w)
  after w t := match w with
    | ⟨0, _⟩ => slab V c 0 t
    | ⟨1, _⟩ => meanOut V c
  Φ t := PhiAcc V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = slab V c 0 t := by dsimp only [dat0]
theorem after0_1 (c : Dev nD) (t : Fin cfg0.N) : (dat0 V c).after 1 t = meanOut V c := by dsimp only [dat0]

/-! ## The invariant, position by position -/

theorem PhiAcc_zero (c : Dev nD) (n : ℕ) (h : n ≤ cfg0.N) (hz : n = 0) : PhiAcc V c n h = Pipeline.ΦA spec0 c := by
  subst hz; rfl

/-- After point `n`: the scratch at that point's accumulator. -/
theorem PhiAcc_succ (c : Dev nD) (n : ℕ) (hn : n < cfg0.N) :
    PhiAcc V c (n + 1) hn = iprop(iprop(owns (c : Thread nD τ) accM fullShare (accAt V c n hn) ∗ Pipeline.scopedRestBut spec0 c [cc0_scratch0]) ∗ (∃ r, prngReg c r)) := rfl

/-- Before a point that is not the first: the scratch at what the point before left. -/
theorem PhiAcc_pos (c : Dev nD) (n : ℕ) (h : n ≤ cfg0.N) (hz : n ≠ 0) :
    PhiAcc V c n h = iprop(iprop(owns (c : Thread nD τ) accM fullShare (accAt V c (n - 1) (by omega)) ∗ Pipeline.scopedRestBut spec0 c [cc0_scratch0]) ∗ (∃ r, prngReg c r)) := by
  cases n with
  | zero => exact absurd rfl hz
  | succ n => rfl

/-- The invariant at a point's start, restated at the point's number. -/
theorem PhiAcc_castSucc (c : Dev nD) (t : Fin cfg0.N) :
    (dat0 V c).Φ t.castSucc = PhiAcc V c t.val (Nat.le_of_lt t.isLt) := by
  dsimp only [dat0]; simp only [Fin.coe_castSucc]

/-- The entry's invariant opened at the scratch: the scratch as a memref owned at some contents, the other scoped
    buffers unopened, the generator register. -/
theorem PhiA0_eq (c : Dev nD) :
    (Pipeline.ΦA spec0 c : sProp 𝕄)
      = iprop(iprop((∃ d, owns (c : Thread nD τ) accM fullShare d) ∗ Pipeline.scopedRestBut spec0 c [cc0_scratch0]) ∗ (∃ r, prngReg c r)) := by
  unfold Pipeline.ΦA
  rw [Pipeline.scopedRest_split_of_list spec0 c [cc0_scratch0] (by decide) (by decide)]
  simp only [accM, owns_whole, bigSepL_singleton]; try rfl

/-- The accumulator after the first point. -/
theorem accAt_first (c : Dev nD) (t : Fin cfg0.N) (h0 : t.val = 0) :
    accAt V c t.val t.isLt = k0_pay2 (k0_pay1 (F := F)) (slab V c 0 t) := by
  obtain ⟨n, hn⟩ := t
  cases n with
  | zero => rfl
  | succ n => exact absurd h0 (Nat.succ_ne_zero n)

/-- The accumulator after a later point: the one before plus the point's row sums. -/
theorem accAt_later (c : Dev nD) (t : Fin cfg0.N) (h0 : t.val ≠ 0) :
    accAt V c t.val t.isLt = k0_pay2 (accAt V c (t.val - 1) (Nat.lt_of_le_of_lt (Nat.sub_le _ _) t.isLt)) (slab V c 0 t) := by
  obtain ⟨n, hn⟩ := t
  cases n with
  | zero => exact absurd rfl h0
  | succ n => rfl

/-- At the last point the stored result is the accumulator after that point, scaled. -/
theorem meanOut_last (c : Dev nD) (t : Fin cfg0.N) (h : t.val = 31) : meanOut V c = k0_pay3 (accAt V c t.val t.isLt) := by
  obtain ⟨n, hn⟩ := t
  dsimp only at h
  subst h
  rfl

/-! ## The body obligation -/

/-- Each window's current staging memref at point `t`, as the pipeline passes it to the body, and its wholeness. -/
abbrev ms0 (t : Fin cfg0.N) : Memref sig .tc .vmem S32x512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x512 .f32 := win0_1.stage (cfg0.slots t 1)
abbrev hs1 (t : Fin cfg0.N) : (ms1 t).IsWhole := hstage0_1 ((cfg0.slots t 1).cast nbuf0_1)

/-- The slab window's current staging buffer holds the point's slab at every point. -/
theorem before0_0 (c : Dev nD) (t : Fin cfg0.N) (d) : (dat0 V c).before 0 t d = slab V c 0 t :=
  ((dat0 V c).before_in_eq_fetched 0 rfl (fun _ => rfl) (fun _ _ _ => rfl)
    (fun t => by rw [after0_0]; unfold Dat.blockOf slab; rw [A_eq0]; try rfl) t d).trans
    (by unfold Dat.fetched Dat.blockOf slab; rw [A_eq0]; try rfl)

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The slab's buffer holds the slab; the invariant hands over the scratch, at anything at
    the first point and at the accumulator the point before left afterwards, and takes it back at this point's
    accumulator. Before the last point the result's buffer is handed back untouched; at the last point it is taken at
    anything and returned at the scaled accumulator. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [show (dat0 V c).Φ t.succ = PhiAcc V c (t.val + 1) t.isLt from rfl, PhiAcc_succ]
  rw [show (dat0 V c).leavesExact 0 t = owns (c : Thread nD τ) (ms0 t) fullShare ((dat0 V c).after 0 t) from by
    unfold Dat.leavesExact; rw [live0_0 t], after0_0]
  have hN : t.val < 32 := lt_of_lt_of_eq t.isLt (show cfg0.N = 32 from N_0)
  by_cases h31 : t.val = 31
  · have h0 : t.val ≠ 0 := by omega
    rw [show (dat0 V c).leavesExact 1 t = owns (c : Thread nD τ) (ms1 t) fullShare ((dat0 V c).after 1 t) from by
      unfold Dat.leavesExact; rw [live0_1 t h31], after0_1, meanOut_last V c t h31]
    rw [PhiAcc_castSucc V c t, PhiAcc_pos V c _ _ h0, accAt_later V c t h0]
    iintro ⟨⟨⟨HS, HR⟩, Hg⟩, Ho, ⟨%d0, H0⟩, ⟨%d1, H1⟩⟩
    iapply (run_last c Set.univ (grid0.coords t) (ms0 t) (hs0 t) (ms1 t) (hs1 t) accM (Memref.isWhole_whole _)
      ((hcond1 t).not.mpr h0) ((hcond2 t).mpr h31) (slab V c 0 t)
      (accAt V c (t.val - 1) (Nat.lt_of_le_of_lt (Nat.sub_le _ _) t.isLt)) _)
    isplitl [H0]; · iexact H0
    isplitl [H1]; · iexists _; iexact H1
    isplitl [HS]; · iexact HS
    iintro ⟨H0, H1, HS⟩
    isplitl [HS HR Hg]
    · isplitl [HS HR]
      · isplitl [HS]; · iexact HS
        iexact HR
      iexact Hg
    isplitl [Ho]; · iexact Ho
    isplitl [H0]; · iexact H0
    iexact H1
  · rw [Dat.leavesExact_idle (dat0 V c) 1 t (idle0_1 t h31) (noFlush0_1 t h31)]
    by_cases h0 : t.val = 0
    · rw [PhiAcc_castSucc V c t, PhiAcc_zero V c _ _ h0, PhiA0_eq, accAt_first V c t h0]
      iintro ⟨⟨⟨HS, HR⟩, Hg⟩, Ho, ⟨%d0, H0⟩, ⟨%d1, H1⟩⟩
      iapply (run_first c Set.univ (grid0.coords t) (ms0 t) (hs0 t) (ms1 t) (hs1 t) accM (Memref.isWhole_whole _)
        ((hcond1 t).mpr h0) ((hcond2 t).not.mpr h31) (slab V c 0 t) _)
      isplitl [H0]; · iexact H0
      isplitl [HS]; · iexact HS
      iintro ⟨H0, HS⟩
      isplitl [HS HR Hg]
      · isplitl [HS HR]
        · isplitl [HS]; · iexact HS
          iexact HR
        iexact Hg
      isplitl [Ho]; · iexact Ho
      isplitl [H0]; · iexact H0
      iexists _; iexact H1
    · rw [PhiAcc_castSucc V c t, PhiAcc_pos V c _ _ h0, accAt_later V c t h0]
      iintro ⟨⟨⟨HS, HR⟩, Hg⟩, Ho, ⟨%d0, H0⟩, ⟨%d1, H1⟩⟩
      iapply (run_middle c Set.univ (grid0.coords t) (ms0 t) (hs0 t) (ms1 t) (hs1 t) accM (Memref.isWhole_whole _)
        ((hcond1 t).not.mpr h0) ((hcond2 t).not.mpr h31) (slab V c 0 t)
        (accAt V c (t.val - 1) (Nat.lt_of_le_of_lt (Nat.sub_le _ _) t.isLt)) _)
      isplitl [H0]; · iexact H0
      isplitl [HS]; · iexact HS
      iintro ⟨H0, HS⟩
      isplitl [HS HR Hg]
      · isplitl [HS HR]
        · isplitl [HS]; · iexact HS
          iexact HR
        iexact Hg
      isplitl [Ho]; · iexact Ho
      isplitl [H0]; · iexact H0
      iexists _; iexact H1

/-- The library's body obligation, at every grid point. -/
theorem body_obligation0 (c : Dev nD) : BodyObligation (dat0 (F := F) V c) (defs₀ (F := F)) Variants.none () Set.univ := fun t => by
  rw [bigSep_W0, bigSep_W0]
  exact sound_body V c t

/-- What the region's entry hands the kernel is the invariant before the first point. -/
theorem hin0 (c : Dev nD) : Pipeline.ΦA spec0 c ⊢ (dat0 V c).Φ 0 := by
  rw [show (dat0 V c).Φ 0 = PhiAcc V c 0 (Nat.zero_le _) from rfl, PhiAcc_zero V c 0 _ rfl]

/-- After any point the invariant gives the entry's resources back: the accumulator's contents are forgotten. -/
theorem Phi_out (c : Dev nD) (t : Fin (cfg0.N + 1)) (ht : t.val ≠ 0) : (dat0 V c).Φ t ⊢ Pipeline.ΦA spec0 c := by
  rw [show (dat0 V c).Φ t = PhiAcc V c t.val (Nat.le_of_lt_succ t.isLt) from rfl, PhiAcc_pos V c _ _ ht, PhiA0_eq]
  iintro ⟨⟨HS, HR⟩, Hg⟩
  isplitl [HS HR]
  · isplitl [HS]; · iexists _; iexact HS
    iexact HR
  iexact Hg

/-- After the last point the invariant gives the entry's resources back: the accumulator's contents are forgotten. -/
theorem hout0 (c : Dev nD) : (dat0 V c).Φ (Fin.last cfg0.N) ⊢ Pipeline.ΦA spec0 c :=
  Phi_out V c _ (by rw [Fin.val_last]; have : cfg0.N = 32 := N_0; omega)

end Cert.Kernel.Mean

end
-- ==== Proof.WordLevel.Gate.lean ====
/-
  The second pallas_call: the gate. One grid point; every operand is one whole block. From the mean a (32 x 512),
  the weights W1, W2 (512 x 512) and the seven vectors of length 512 it computes
      sigmoid( relu( gamma * ((a W1^T + b1) - mean) * rsqrt(var + eps) + beta ) W2^T + b2 ).
  Everything here is stated at the contents `V` the region finds in the buffers, and at any float instance.
-/
import proofs.«102520_j78245714198911_1_alg».proof.Proof.Gen.Kernel.Launch
import proofs.«102520_j78245714198911_1_alg».proof.Proof.Gen.Kernel.Skeleton
import proofs.«102520_j78245714198911_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it (the whole array: the grid
    has one point and every block is its array). -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores into the result's block: the gate of the nine operand blocks (the body's one payload; its
    vector operands in the order the body loads them: b1, gamma, mean, var, beta, then W2 and b2). -/
def gateOut (c : Dev nD) (t : Fin cfg1.N) : Vec F S32x512 .f32 :=
  k1_pay1 (blk1 V c 0 t) (blk1 V c 1 t) (blk1 V c 2 t) (blk1 V c 3 t) (blk1 V c 5 t) (blk1 V c 6 t) (blk1 V c 4 t) (blk1 V c 7 t) (blk1 V c 8 t)

/-- The proof data of the second pipeline on core `c`: every input's buffer keeps its block, the result's holds the gate. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => gateOut V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_9 (c : Dev nD) (t : Fin cfg1.N) : (dat1 V c).after 9 t = gateOut V c t := by dsimp only [dat1]

/-! ## The operands' buffers at the grid point -/

-- each operand's buffer holds its block at the point (the window is fetched there; were it not, its index would not have moved)
theorem before1_0 (c : Dev nD) (t : Fin cfg1.N) (d) : (dat1 V c).before 0 t d = blk1 V c 0 t :=
  ((dat1 V c).before_in_eq_fetched 0 rfl (fun _ => rfl) (fun _ _ _ => rfl)
    (fun t => by rw [show (dat1 V c).after 0 t = blk1 V c 0 t by dsimp only [dat1]]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [show (dat1 V c).after 1 t = blk1 V c 1 t by dsimp only [dat1]]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [show (dat1 V c).after 2 t = blk1 V c 2 t by dsimp only [dat1]]; unfold Dat.blockOf blk1; rw [A_eq1]; try rfl) t d).trans
    (by unfold Dat.fetched Dat.blockOf blk1; rw [A_eq1]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [show (dat1 V c).after 3 t = blk1 V c 3 t by dsimp only [dat1]]; unfold Dat.blockOf blk1; rw [A_eq1]; try rfl) t d).trans
    (by unfold Dat.fetched Dat.blockOf blk1; rw [A_eq1]; try rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [show (dat1 V c).after 4 t = blk1 V c 4 t by dsimp only [dat1]]; unfold Dat.blockOf blk1; rw [A_eq1]; try rfl) t d).trans
    (by unfold Dat.fetched Dat.blockOf blk1; rw [A_eq1]; try rfl)
theorem before1_5 (c : Dev nD) (t : Fin cfg1.N) (d) : (dat1 V c).before 5 t d = blk1 V c 5 t :=
  ((dat1 V c).before_in_eq_fetched 5 rfl (fun _ => rfl) (fun _ _ _ => rfl)
    (fun t => by rw [show (dat1 V c).after 5 t = blk1 V c 5 t by dsimp only [dat1]]; unfold Dat.blockOf blk1; rw [A_eq1]; try rfl) t d).trans
    (by unfold Dat.fetched Dat.blockOf blk1; rw [A_eq1]; try rfl)
theorem before1_6 (c : Dev nD) (t : Fin cfg1.N) (d) : (dat1 V c).before 6 t d = blk1 V c 6 t :=
  ((dat1 V c).before_in_eq_fetched 6 rfl (fun _ => rfl) (fun _ _ _ => rfl)
    (fun t => by rw [show (dat1 V c).after 6 t = blk1 V c 6 t by dsimp only [dat1]]; unfold Dat.blockOf blk1; rw [A_eq1]; try rfl) t d).trans
    (by unfold Dat.fetched Dat.blockOf blk1; rw [A_eq1]; try rfl)
theorem before1_7 (c : Dev nD) (t : Fin cfg1.N) (d) : (dat1 V c).before 7 t d = blk1 V c 7 t :=
  ((dat1 V c).before_in_eq_fetched 7 rfl (fun _ => rfl) (fun _ _ _ => rfl)
    (fun t => by rw [show (dat1 V c).after 7 t = blk1 V c 7 t by dsimp only [dat1]]; unfold Dat.blockOf blk1; rw [A_eq1]; try rfl) t d).trans
    (by unfold Dat.fetched Dat.blockOf blk1; rw [A_eq1]; try rfl)
theorem before1_8 (c : Dev nD) (t : Fin cfg1.N) (d) : (dat1 V c).before 8 t d = blk1 V c 8 t :=
  ((dat1 V c).before_in_eq_fetched 8 rfl (fun _ => rfl) (fun _ _ _ => rfl)
    (fun t => by rw [show (dat1 V c).after 8 t = blk1 V c 8 t by dsimp only [dat1]]; unfold Dat.blockOf blk1; rw [A_eq1]; try rfl) t d).trans
    (by unfold Dat.fetched Dat.blockOf blk1; rw [A_eq1]; try rfl)

/-! ## The body on whole buffers -/

-- the offsets of a whole-buffer access are zero on every axis
private theorem zeros1 : (![0] : Fin 1 → Nat) = fun _ => 0 := by funext a; fin_cases a; rfl
private theorem zeros2 : (![0, 0] : Fin 2 → Nat) = fun _ => 0 := by funext a; fin_cases a <;> rfl

set_option maxHeartbeats 1000000 in
/-- The body on ten whole buffers, the nine operands' holding `x0 … x8` and the result's holding anything: it reads the
    nine, reads the result's buffer once (to no use) and stores the gate of the nine over the whole of it. -/
theorem sound_kernel1 (c : Dev nD) (E : Set ℕ) (i : grid1.Coords) (arg1 : Memref sig .tc .vmem S32x512 .f32) (harg1 : arg1.IsWhole) (arg2 : Memref sig .tc .vmem S512x512 .f32) (harg2 : arg2.IsWhole) (arg3 : Memref sig .tc .vmem S512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S32x512 .f32) (harg10 : arg10.IsWhole)
    (x0 : Vec F S32x512 .f32) (x1 : Vec F S512x512 .f32) (x2 : Vec F S512 .f32) (x3 : Vec F S512 .f32) (x4 : Vec F S512 .f32) (x5 : Vec F S512 .f32) (x6 : Vec F S512 .f32) (x7 : Vec F S512x512 .f32) (x8 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k1_pay1 x0 x1 x2 x3 x5 x6 x4 x7 x8)) -∗ K ⟨⟩))
      ⊢ wp frame (wpE (defs₀ (F := F)) Variants.none c none) E (cc1__gate_kernel i arg1 harg1 arg2 harg2 arg3 harg3 arg4 harg4 arg5 harg5 arg6 harg6 arg7 harg7 arg8 harg8 arg9 harg9 arg10 harg10) K := by
  sl_unfold [cc1__gate_kernel, k1_part1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (fun y => ⟨_, List.mem_singleton_self _,
      View.mem_set_unit_zero (S := S32x512) zeros2 inb_S32x512_S32x512_0_0 y⟩),
    View.canon_unit_zero (S := S32x512) zeros2]
  sl_unfold_run_names
  simp only [View.readAt_eq_ld, View.ld_unit_zero (S := S32x512) zeros2, View.ld_unit_zero (S := S512x512) zeros2,
    View.ld_unit_zero (S := S512) zeros1]

/-! ## The body obligation at the grid point -/

/-- What the body is called with at the grid point: the invariant, the core's debt, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at the grid point: the nine operands' buffers hold their blocks, so the body's triple applies at the
    blocks; the invariant and the core's debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    show (dat1 V c).after 0 t = blk1 V c 0 t by dsimp only [dat1],
    show (dat1 V c).after 1 t = blk1 V c 1 t by dsimp only [dat1],
    show (dat1 V c).after 2 t = blk1 V c 2 t by dsimp only [dat1],
    show (dat1 V c).after 3 t = blk1 V c 3 t by dsimp only [dat1],
    show (dat1 V c).after 4 t = blk1 V c 4 t by dsimp only [dat1],
    show (dat1 V c).after 5 t = blk1 V c 5 t by dsimp only [dat1],
    show (dat1 V c).after 6 t = blk1 V c 6 t by dsimp only [dat1],
    show (dat1 V c).after 7 t = blk1 V c 7 t by dsimp only [dat1],
    show (dat1 V c).after 8 t = blk1 V c 8 t by dsimp only [dat1],
    after1_9]
  unfold gateOut
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Gate

end
-- ==== Proof.WordLevel.Shrink.lean ====
/-
  The third pallas_call: the soft threshold. 64 grid points, each a slab of 128 columns of x; the threshold column
  thr (32 x 512 x 1) is one block, fetched once. Point t stores  min(|x| - thr, 0)  over its slab, thr spread along
  the last axis. Everything here is stated at the contents `V` the region finds in the buffers, and at any float
  instance.
-/
import proofs.«102520_j78245714198911_1_alg».proof.Proof.Gen.Kernel.Launch
import proofs.«102520_j78245714198911_1_alg».proof.Proof.Gen.Kernel.Skeleton
import proofs.«102520_j78245714198911_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Shrink

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it: for windows 0 and 2 the slab
    of columns [128 t, 128 t + 128), for window 1 the whole threshold column. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What point `t` stores into the result's block. -/
def shrinkOut (c : Dev nD) (t : Fin cfg2.N) : Vec F S32x512x128 .f32 :=
  k2_pay1 (blk2 V c 0 t) (blk2 V c 1 t)

/-- The proof data of the third pipeline on core `c`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => shrinkOut V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = shrinkOut V c t := by dsimp only [dat2]

/-! ## What the body finds in its two input buffers -/

/-- The slab of x: at every grid point the current staging buffer of window 0 holds the point's slab. The window
    is fetched at every point, it is an input, never idle and uncut, and the body leaves it as found. -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The threshold column: fetched at the first point only, its block index never moves, so at every later point
    the buffer still holds the one block, which the body leaves as found. -/
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d

/-! ## The body's triple -/

/-- The zero offsets of a whole-buffer access, as the constant function. -/
theorem off3_zero : (![0, 0, 0] : Fin 3 → ℕ) = fun _ => 0 := by
  funext a; fin_cases a <;> rfl

set_option maxHeartbeats 1000000 in
/-- The body on whole staging memrefs: the two inputs at contents `x0`, `x1`, the result's buffer at anything. It
    loads both inputs whole, loads the result's buffer (a value it never uses), and stores one payload over the
    whole of the result's buffer; so it ends with the inputs as they were and the result's buffer at the payload.
    A whole-rectangle load reads the contents themselves, and one whole-rectangle store read back is its payload. -/
theorem sound_kernel2 (c : Dev nD) (E : Set ℕ) (i : grid2.Coords)
    (arg0 : Memref sig .tc .vmem S32x512x128 .f32) (harg0 : arg0.IsWhole)
    (arg1 : Memref sig .tc .vmem S32x512x1 .f32) (harg1 : arg1.IsWhole)
    (arg2 : Memref sig .tc .vmem S32x512x128 .f32) (harg2 : arg2.IsWhole)
    (x0 : Vec F S32x512x128 .f32) (x1 : Vec F S32x512x1 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (k2_pay1 x0 x1)) -∗ K ⟨⟩))
      ⊢ wp frame (wpE (defs₀ (F := F)) Variants.none c none) E (cc2__combine_kernel i arg0 harg0 arg1 harg1 arg2 harg2) K := by
  simp only [cc2__combine_kernel_eq_skeleton]; unfold cc2__combine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _,
      View.mem_set_unit_zero off3_zero inb_S32x512x128_S32x512x128_0_0_0 y⟩),
    View.canon_unit_zero off3_zero, View.readAt_eq_ld, View.readAt_eq_ld]
  show k2_pay1 (View.ld (View.read (Elt F) arg0.view f0) (Rect.unit ![0, 0, 0] S32x512x128.size inb_S32x512x128_S32x512x128_0_0_0))
      (View.ld (View.read (Elt F) arg1.view f1) (Rect.unit ![0, 0, 0] S32x512x1.size inb_S32x512x1_S32x512x1_0_0_0)) = _
  rw [View.ld_unit_zero off3_zero, View.ld_unit_zero off3_zero]

/-! ## The body obligation, at a generic grid point -/

/-- What the body is called with at point `t`, the three windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the input buffers hold the point's slab of x and the threshold column, so the
    body's triple applies at those two blocks; the invariant and what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  unfold shrinkOut
  iintro ⟨HΦ, Ho, ⟨%d0, H0⟩, ⟨%d1, H1⟩, ⟨%d2, H2⟩⟩
  iapply (sound_kernel2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every grid point. -/
theorem body_obligation2 (c : Dev nD) : BodyObligation (dat2 (F := F) V c) (defs₀ (F := F)) Variants.none () Set.univ := fun t => by
  rw [bigSep_W2, bigSep_W2]
  exact sound_body2 V c t

end Cert.Kernel.Shrink

end
-- ==== Proof.WordLevel.Fold.lean ====
/-
  The contents of the TensorCore's unscoped buffers at each boundary of @main's four items — the mean's pallas_call,
  the gate's, the host stretch that multiplies the two and adds a unit axis, the soft threshold's —, as a fold from
  the launch memory: a pallas_call leaves its arrays at what its write-backs leave and every other buffer as it was;
  a host stretch leaves what its operations compute. Then what each item finds in the buffers it reads, and that no
  item changes an argument. At any float instance.
-/
import proofs.«102520_j78245714198911_1_alg».proof.Proof.Gen.Kernel.Launch
import proofs.«102520_j78245714198911_1_alg».proof.Proof.Gen.Kernel.Skeleton
import proofs.«102520_j78245714198911_1_alg».proof.Proof.Gen.Kernel.Points
import proofs.«102520_j78245714198911_1_alg».proof.Proof.WordLevel.Mean
import proofs.«102520_j78245714198911_1_alg».proof.Proof.WordLevel.Gate
import proofs.«102520_j78245714198911_1_alg».proof.Proof.WordLevel.Shrink
import Idealize.ShloMosaic.Lib.Pipeline.RegionsLoop
import Idealize.ShloMosaic.Lib.StableHlo.Run
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mean Cert.Kernel.Gate Cert.Kernel.Shrink

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- The same read at the TensorCore's references (what the mean's proof data take). -/
abbrev V0 : (c : Dev nD) → (b : Ref sig .tc) → Buf (Elt F) ((c : Thread nD τ).loc b) := fun c b => W0 m c b

/-- After the mean's pallas_call: its arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the gate's pallas_call. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host stretch: mean times gate, then the unit axis. -/
abbrev W3 : Dev nD → Valuation τ sig (Elt F) := fun c => StableHlo.after hostOps2 (W2 m c)
abbrev V3 : (c : Dev nD) → (b : Ref sig .tc) → Buf (Elt F) ((c : Thread nD τ).loc b) := fun c b => W3 m c b

/-- After the soft threshold's pallas_call: the buffers at the return. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-! ## What each item finds in the buffers it reads -/

/-- The host stretch writes the product and the threshold column only. -/
theorem hostOps2_writes : (hostOps2 : List (HloOp τ sig (Elt F))).Forall fun op =>
    op.writes ⊆ (([main_v2, main_v3] : List (Ref sig .tc)).map (Proc.devRef (τ := τ) .tc)).toFinset := by
  simp only [List.Forall]
  refine ⟨?_, ?_⟩
  · simp only [StableHlo.binary_writes, Finset.singleton_subset_iff, List.mem_toFinset]
    exact List.mem_map_of_mem (by decide)
  · simp only [StableHlo.unary_writes, Finset.singleton_subset_iff, List.mem_toFinset]
    exact List.mem_map_of_mem (by decide)

/-- Every other buffer passes the host stretch unchanged. -/
theorem W3_of (c : Dev nD) (r : Ref sig .tc) (h : r ∉ ([main_v2, main_v3] : List (Ref sig .tc))) :
    W3 m c (Proc.devRef .tc r) = W2 m c (Proc.devRef .tc r) :=
  StableHlo.after_of_writes_sub hostOps2 _ hostOps2_writes h

/-- The mean's pallas_call leaves the mean in `main_v0`. -/
theorem V1_main_v0 (c : Dev nD) : V1 m c main_v0 = (dat0 (V0 m) c).arrAt 1 cfg0.N := W1_arr m c 1
theorem V1_main_arg0 (c : Dev nD) : V1 m c main_arg0 = m ((c : Thread nD τ).loc main_arg0) :=
  (W1_arr m c 0).trans (((dat0 (V0 m) c).arrAt_in 0 rfl _).trans (A_eq0 (V0 m) c 0))
theorem V1_main_arg1 (c : Dev nD) : V1 m c main_arg1 = m ((c : Thread nD τ).loc main_arg1) := W1_of_ne m c main_arg1 (by decide)
theorem V1_main_arg2 (c : Dev nD) : V1 m c main_arg2 = m ((c : Thread nD τ).loc main_arg2) := W1_of_ne m c main_arg2 (by decide)
theorem V1_main_arg3 (c : Dev nD) : V1 m c main_arg3 = m ((c : Thread nD τ).loc main_arg3) := W1_of_ne m c main_arg3 (by decide)
theorem V1_main_arg4 (c : Dev nD) : V1 m c main_arg4 = m ((c : Thread nD τ).loc main_arg4) := W1_of_ne m c main_arg4 (by decide)
theorem V1_main_arg5 (c : Dev nD) : V1 m c main_arg5 = m ((c : Thread nD τ).loc main_arg5) := W1_of_ne m c main_arg5 (by decide)
theorem V1_main_arg6 (c : Dev nD) : V1 m c main_arg6 = m ((c : Thread nD τ).loc main_arg6) := W1_of_ne m c main_arg6 (by decide)
theorem V1_main_arg7 (c : Dev nD) : V1 m c main_arg7 = m ((c : Thread nD τ).loc main_arg7) := W1_of_ne m c main_arg7 (by decide)
theorem V1_main_arg8 (c : Dev nD) : V1 m c main_arg8 = m ((c : Thread nD τ).loc main_arg8) := W1_of_ne m c main_arg8 (by decide)

/-- The gate's pallas_call leaves the gate in `main_v1` and the mean where it was. -/
theorem V2_main_v1 (c : Dev nD) : V2 m c main_v1 = (dat1 (V1 m) c).arrAt 9 cfg1.N := W2_arr m c 9
theorem V2_main_v0 (c : Dev nD) : V2 m c main_v0 = V1 m c main_v0 :=
  (W2_arr m c 0).trans (((dat1 (V1 m) c).arrAt_in 0 rfl _).trans (A_eq1 (V1 m) c 0))
theorem V2_main_arg0 (c : Dev nD) : V2 m c main_arg0 = m ((c : Thread nD τ).loc main_arg0) :=
  (W2_of_ne m c main_arg0 (by decide)).trans (V1_main_arg0 m c)
theorem V2_main_arg1 (c : Dev nD) : V2 m c main_arg1 = m ((c : Thread nD τ).loc main_arg1) :=
  (W2_arr m c 1).trans (((dat1 (V1 m) c).arrAt_in 1 rfl _).trans ((A_eq1 (V1 m) c 1).trans (V1_main_arg1 m c)))
theorem V2_main_arg2 (c : Dev nD) : V2 m c main_arg2 = m ((c : Thread nD τ).loc main_arg2) :=
  (W2_arr m c 2).trans (((dat1 (V1 m) c).arrAt_in 2 rfl _).trans ((A_eq1 (V1 m) c 2).trans (V1_main_arg2 m c)))
theorem V2_main_arg3 (c : Dev nD) : V2 m c main_arg3 = m ((c : Thread nD τ).loc main_arg3) :=
  (W2_arr m c 3).trans (((dat1 (V1 m) c).arrAt_in 3 rfl _).trans ((A_eq1 (V1 m) c 3).trans (V1_main_arg3 m c)))
theorem V2_main_arg4 (c : Dev nD) : V2 m c main_arg4 = m ((c : Thread nD τ).loc main_arg4) :=
  (W2_arr m c 4).trans (((dat1 (V1 m) c).arrAt_in 4 rfl _).trans ((A_eq1 (V1 m) c 4).trans (V1_main_arg4 m c)))
theorem V2_main_arg5 (c : Dev nD) : V2 m c main_arg5 = m ((c : Thread nD τ).loc main_arg5) :=
  (W2_arr m c 5).trans (((dat1 (V1 m) c).arrAt_in 5 rfl _).trans ((A_eq1 (V1 m) c 5).trans (V1_main_arg5 m c)))
theorem V2_main_arg6 (c : Dev nD) : V2 m c main_arg6 = m ((c : Thread nD τ).loc main_arg6) :=
  (W2_arr m c 6).trans (((dat1 (V1 m) c).arrAt_in 6 rfl _).trans ((A_eq1 (V1 m) c 6).trans (V1_main_arg6 m c)))
theorem V2_main_arg7 (c : Dev nD) : V2 m c main_arg7 = m ((c : Thread nD τ).loc main_arg7) :=
  (W2_arr m c 7).trans (((dat1 (V1 m) c).arrAt_in 7 rfl _).trans ((A_eq1 (V1 m) c 7).trans (V1_main_arg7 m c)))
theorem V2_main_arg8 (c : Dev nD) : V2 m c main_arg8 = m ((c : Thread nD τ).loc main_arg8) :=
  (W2_arr m c 8).trans (((dat1 (V1 m) c).arrAt_in 8 rfl _).trans ((A_eq1 (V1 m) c 8).trans (V1_main_arg8 m c)))

/-- The host stretch leaves the threshold column in `main_v3`: the product of mean and gate with a unit axis added. -/
theorem V3_main_v3 (c : Dev nD) :
    (V3 m c main_v3 : (⟨S32x512x1, .f32⟩ : BufTy).Contents (Elt F))
      = broadcastInDim S32x512x1 ![0, 1] bcast_S32x512_S32x512x1_0_1 (mulf (V2 m c main_v0 : (⟨S32x512, .f32⟩ : BufTy).Contents (Elt F)) (V2 m c main_v1)) := by
  show StableHlo.after hostOps2 _ (Proc.devRef .tc main_v3) = _
  after_results
theorem V3_main_arg0 (c : Dev nD) : V3 m c main_arg0 = m ((c : Thread nD τ).loc main_arg0) :=
  (W3_of m c main_arg0 (by decide)).trans (V2_main_arg0 m c)
theorem V3_main_arg1 (c : Dev nD) : V3 m c main_arg1 = m ((c : Thread nD τ).loc main_arg1) :=
  (W3_of m c main_arg1 (by decide)).trans (V2_main_arg1 m c)
theorem V3_main_arg2 (c : Dev nD) : V3 m c main_arg2 = m ((c : Thread nD τ).loc main_arg2) :=
  (W3_of m c main_arg2 (by decide)).trans (V2_main_arg2 m c)
theorem V3_main_arg3 (c : Dev nD) : V3 m c main_arg3 = m ((c : Thread nD τ).loc main_arg3) :=
  (W3_of m c main_arg3 (by decide)).trans (V2_main_arg3 m c)
theorem V3_main_arg4 (c : Dev nD) : V3 m c main_arg4 = m ((c : Thread nD τ).loc main_arg4) :=
  (W3_of m c main_arg4 (by decide)).trans (V2_main_arg4 m c)
theorem V3_main_arg5 (c : Dev nD) : V3 m c main_arg5 = m ((c : Thread nD τ).loc main_arg5) :=
  (W3_of m c main_arg5 (by decide)).trans (V2_main_arg5 m c)
theorem V3_main_arg6 (c : Dev nD) : V3 m c main_arg6 = m ((c : Thread nD τ).loc main_arg6) :=
  (W3_of m c main_arg6 (by decide)).trans (V2_main_arg6 m c)
theorem V3_main_arg7 (c : Dev nD) : V3 m c main_arg7 = m ((c : Thread nD τ).loc main_arg7) :=
  (W3_of m c main_arg7 (by decide)).trans (V2_main_arg7 m c)
theorem V3_main_arg8 (c : Dev nD) : V3 m c main_arg8 = m ((c : Thread nD τ).loc main_arg8) :=
  (W3_of m c main_arg8 (by decide)).trans (V2_main_arg8 m c)

/-- The soft threshold's pallas_call leaves the result in `main_v4`; no item has changed an argument. -/
theorem V4_main_v4 (c : Dev nD) : V4 m c main_v4 = (dat2 (V3 m) c).arrAt 2 cfg2.N := W4_arr m c 2
theorem V4_main_arg0 (c : Dev nD) : V4 m c main_arg0 = m ((c : Thread nD τ).loc main_arg0) :=
  (W4_arr m c 0).trans (((dat2 (V3 m) c).arrAt_in 0 rfl _).trans ((A_eq2 (V3 m) c 0).trans (V3_main_arg0 m c)))
theorem V4_main_arg1 (c : Dev nD) : V4 m c main_arg1 = m ((c : Thread nD τ).loc main_arg1) :=
  (W4_of_ne m c main_arg1 (by decide)).trans (V3_main_arg1 m c)
theorem V4_main_arg2 (c : Dev nD) : V4 m c main_arg2 = m ((c : Thread nD τ).loc main_arg2) :=
  (W4_of_ne m c main_arg2 (by decide)).trans (V3_main_arg2 m c)
theorem V4_main_arg3 (c : Dev nD) : V4 m c main_arg3 = m ((c : Thread nD τ).loc main_arg3) :=
  (W4_of_ne m c main_arg3 (by decide)).trans (V3_main_arg3 m c)
theorem V4_main_arg4 (c : Dev nD) : V4 m c main_arg4 = m ((c : Thread nD τ).loc main_arg4) :=
  (W4_of_ne m c main_arg4 (by decide)).trans (V3_main_arg4 m c)
theorem V4_main_arg5 (c : Dev nD) : V4 m c main_arg5 = m ((c : Thread nD τ).loc main_arg5) :=
  (W4_of_ne m c main_arg5 (by decide)).trans (V3_main_arg5 m c)
theorem V4_main_arg6 (c : Dev nD) : V4 m c main_arg6 = m ((c : Thread nD τ).loc main_arg6) :=
  (W4_of_ne m c main_arg6 (by decide)).trans (V3_main_arg6 m c)
theorem V4_main_arg7 (c : Dev nD) : V4 m c main_arg7 = m ((c : Thread nD τ).loc main_arg7) :=
  (W4_of_ne m c main_arg7 (by decide)).trans (V3_main_arg7 m c)
theorem V4_main_arg8 (c : Dev nD) : V4 m c main_arg8 = m ((c : Thread nD τ).loc main_arg8) :=
  (W4_of_ne m c main_arg8 (by decide)).trans (V3_main_arg8 m c)

end Cert.Kernel.Fold

end
-- ==== Proof.WordLevel.Whole.lean ====
/-
  The whole program's run: @main is the mean's pallas_call, the gate's, a host stretch, the soft threshold's. Each
  pallas_call is entered from every unscoped buffer held at the contents the item before it left, and leaves them at
  the next boundary's contents; so every weakly fair execution terminates without a fault with every unscoped
  buffer at the last boundary's contents. At any float instance.
-/
import proofs.«102520_j78245714198911_1_alg».proof.Proof.Gen.Kernel.Launch
import proofs.«102520_j78245714198911_1_alg».proof.Proof.Gen.Kernel.Skeleton
import proofs.«102520_j78245714198911_1_alg».proof.Proof.Gen.Kernel.Points
import proofs.«102520_j78245714198911_1_alg».proof.Proof.WordLevel.Fold
import Idealize.ShloMosaic.Lib.Pipeline.RegionsLoop
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Mean Cert.Kernel.Gate Cert.Kernel.Shrink Cert.Kernel.Fold

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a core owes: nothing, at both ends of every pallas_call -/

section Owes

variable {cfg : Cfg sig Λ₀} {c : Dev nD} (dat : Dat τ (Elt F) Unit ℕ (UR sig nD τ) ℕ cfg c)

/-- A core that owes nothing, whatever pairs its waits recorded, owes the proof data's tallies at a position where
    these are zero and the recorded pairs are not bounded. -/
theorem owesAt_of_nothing (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hrec]
  iintro ⟨%W, HO⟩
  iexists W
  isplitr
  · ipureintro; exact fun _ _ => Or.inl trivial
  iexact HO

/-- And back: the tallies being zero, the core owes nothing. -/
theorem nothing_of_owesAt (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

end Owes

/-! ## The proof data of the three pipelines, and the state a core is in between two items -/

/-- No pallas_call of the program has a prefetched table. -/
abbrev adm : (p : Fin 3) → (pcfgs (F := F) p).Adm := fun p => (cfgs p).toPCfg_adm

/-- Every pipeline's proof data, each at the contents its pallas_call finds: the mean's at the launch memory, the
    gate's after the mean, the soft threshold's after the host stretch. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c

abbrev 𝒱₀ : Variants := Variants.none
/-- No core ever owes another anything: no level is assigned. -/
abbrev L : GSem nD τ sig → Finset Unit := fun _ => ∅
abbrev lv : GSem nD τ sig → Unit → ℕ := fun _ _ => 0

/-- What a core holds besides its buffers between two items: its generator register at some state, and owing nothing. -/
abbrev R (c : Dev nD) : sProp 𝕄 :=
  iprop((∃ r, prngReg c r) ∗ ∃ W, owes (c : Thread nD τ) (0 : CellTallies nD τ sig Unit) W)

/-- The state of core `c` at a boundary whose contents are `W`: every unscoped buffer whole at `W c`, beside `R c`. -/
abbrev T (W : Dev nD → Valuation τ sig (Elt F)) (c : Dev nD) : sProp 𝕄 :=
  iprop(StableHlo.held (c : Thread nD τ) (Pipeline.ucRefs τ sig) (W c) ∗ R c)

/-- Neither host operation allocates a buffer. -/
theorem hostOps2_fresh : (hostOps2 : List (HloOp τ sig (Elt F))).Forall fun op => op.fresh = ∅ := by
  simp only [List.Forall]; repeat' constructor

/-- The host stretch (mean times gate, then the unit axis) over every unscoped buffer, from the contents the gate's
    pallas_call leaves. -/
abbrev host2 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-! ## The three pallas_calls as segments

Each is entered from every unscoped buffer at the contents of the boundary before it. Its windows' arrays are taken
out of those buffers, the generator register goes into the invariant, the other unscoped buffers go round the
region; at the exit the arrays come back at what the write-backs left and the buffers are whole again at the next
boundary's contents. -/

set_option backward.isDefEq.respectTransparency.types false in
/-- The mean's pallas_call. Its invariant carries the scratch accumulator from one grid point to the next, so the
    two ends of the invariant are reached through `hin0` and `hout0`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre := T (W0 m)
  post := T (W1 m)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have harr := Pipeline.arrays_of_unscopedBufs (p := 0) (pcfgs (F := F)) adm (pdats m) launch0.win launch0.arr_whole c
      ((pdats m 0 c).share_full fun _ => rfl) (V0 m c) fun _ => rfl
    rw [Pipeline.unscopedBufs_held] at harr
    iintro ⟨⟨Hbufs, Hreg, Howe⟩, -, -⟩
    ihave Hsp := harr $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · iapply (owesAt_of_nothing (pdats m 0 c) 0 rfl rfl); iexact Howe
    isplitl [Hreg]; · iexact Hreg
    iexact Hrest
  hin c := by
    have hfirst : Pipeline.ΦA spec0 c ⊢ (pdats m 0 c).Φ 0 := hin0 (V0 m) c
    unfold Pipeline.ΦA at hfirst
    iintro ⟨Hreg, -, Hsc⟩
    iapply hfirst
    isplitl [Hsc]; · iexact Hsc
    iexact Hreg
  hout c := by
    rw [Pipeline.ownSems0_none]
    have hlast : (pdats m 0 c).Φ (Fin.last _) ⊢ Pipeline.ΦA spec0 c := hout0 (V0 m) c
    unfold Pipeline.ΦA at hlast
    iintro Hinv
    ihave Hgive := hlast $$ Hinv
    icases Hgive with ⟨Hsc, Hreg⟩
    isplitl [Hreg]; · iexact Hreg
    isplitr; · iempintro
    iexact Hsc
  hexit c := by
    have hback := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hback
    iintro ⟨Harr, Howe, Hreg, Hrest⟩
    imodintro
    isplitl [Harr Hrest]
    · iapply hback; isplitl [Harr] <;> iassumption
    isplitl [Hreg]; · iexact Hreg
    iapply (nothing_of_owesAt (pdats m 0 c) (Fin.last _) rfl); iexact Howe

set_option backward.isDefEq.respectTransparency.types false in
/-- The gate's pallas_call: one grid point, nothing carried, so its invariant is the class's at both ends. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre := T (W1 m)
  post := T (W2 m)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have harr := Pipeline.arrays_of_unscopedBufs (p := 1) (pcfgs (F := F)) adm (pdats m) launch1.win launch1.arr_whole c
      ((pdats m 1 c).share_full fun _ => rfl) (V1 m c) fun _ => rfl
    rw [Pipeline.unscopedBufs_held] at harr
    iintro ⟨⟨Hbufs, Hreg, Howe⟩, -, -⟩
    ihave Hsp := harr $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · iapply (owesAt_of_nothing (pdats m 1 c) 0 rfl rfl); iexact Howe
    isplitl [Hreg]; · iexact Hreg
    iexact Hrest
  hin c := by
    rw [show (pdats m 1 c).Φ 0 = Pipeline.ΦA spec1 c from rfl]
    unfold Pipeline.ΦA
    iintro ⟨Hreg, -, Hsc⟩
    isplitl [Hsc]; · iexact Hsc
    iexact Hreg
  hout c := by
    rw [Pipeline.ownSems0_none, show (pdats m 1 c).Φ (Fin.last _) = Pipeline.ΦA spec1 c from rfl]
    unfold Pipeline.ΦA
    iintro ⟨Hsc, Hreg⟩
    isplitl [Hreg]; · iexact Hreg
    isplitr; · iempintro
    iexact Hsc
  hexit c := by
    have hback := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hback
    iintro ⟨Harr, Howe, Hreg, Hrest⟩
    imodintro
    isplitl [Harr Hrest]
    · iapply hback; isplitl [Harr] <;> iassumption
    isplitl [Hreg]; · iexact Hreg
    iapply (nothing_of_owesAt (pdats m 1 c) (Fin.last _) rfl); iexact Howe

set_option backward.isDefEq.respectTransparency.types false in
/-- The soft threshold's pallas_call, entered from what the host stretch leaves; nothing carried between its grid points. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre := T (W3 m)
  post := T (W4 m)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have harr := Pipeline.arrays_of_unscopedBufs (p := 2) (pcfgs (F := F)) adm (pdats m) launch2.win launch2.arr_whole c
      ((pdats m 2 c).share_full fun _ => rfl) (V3 m c) fun _ => rfl
    rw [Pipeline.unscopedBufs_held] at harr
    iintro ⟨⟨Hbufs, Hreg, Howe⟩, -, -⟩
    ihave Hsp := harr $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · iapply (owesAt_of_nothing (pdats m 2 c) 0 rfl rfl); iexact Howe
    isplitl [Hreg]; · iexact Hreg
    iexact Hrest
  hin c := by
    rw [show (pdats m 2 c).Φ 0 = Pipeline.ΦA spec2 c from rfl]
    unfold Pipeline.ΦA
    iintro ⟨Hreg, -, Hsc⟩
    isplitl [Hsc]; · iexact Hsc
    iexact Hreg
  hout c := by
    rw [Pipeline.ownSems0_none, show (pdats m 2 c).Φ (Fin.last _) = Pipeline.ΦA spec2 c from rfl]
    unfold Pipeline.ΦA
    iintro ⟨Hsc, Hreg⟩
    isplitl [Hreg]; · iexact Hreg
    isplitr; · iempintro
    iexact Hsc
  hexit c := by
    have hback := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hback
    iintro ⟨Harr, Howe, Hreg, Hrest⟩
    imodintro
    isplitl [Harr Hrest]
    · iapply hback; isplitl [Harr] <;> iassumption
    isplitl [Hreg]; · iexact Hreg
    iapply (nothing_of_owesAt (pdats m 2 c) (Fin.last _) rfl); iexact Howe

/-! ## @main as the four segments, and the launch -/

/-- @main's items in order: the mean's pallas_call, the gate's, the host stretch, the soft threshold's. -/
abbrev segs : List (Pipeline.Seg (pcfgs (F := F)) adm (pdats m) () defs₀ 𝒱₀ L lv) :=
  [ .region (reg0 m), .region (reg1 m), .host (host2 m), .region (reg2 m) ]

/-- @main is the run of those segments: it is the chain of its four items, and so is the segments' run. -/
theorem main_run (c : Dev nD) : main (F := F) c = Pipeline.Seg.run (segs m) := (main_chain c).trans (by chain_rfl)

/-- An unscoped reference of the TensorCore is one of the buffers the state between items holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The state at the return without what the core owes: the buffers at the last boundary's contents, the generator
    register at some state. -/
abbrev Tend (c : Dev nD) : sProp 𝕄 :=
  iprop(StableHlo.held (c : Thread nD τ) (Pipeline.ucRefs τ sig) (W4 m c) ∗ ∃ r, prngReg c r)

/-- The state at the last boundary is that one beside the core owing nothing. -/
theorem T_end (c : Dev nD) :
    T (W4 m) c ⊢ iprop(Tend m c ∗ ∃ W, owes (c : Thread nD τ) (0 : CellTallies nD τ sig Unit) W) := by
  iintro ⟨Hbufs, Hreg, Howe⟩
  isplitl [Hbufs Hreg]
  · isplitl [Hbufs] <;> iassumption
  iexact Howe

set_option backward.isDefEq.respectTransparency.types false in
/-- From any memory with zero counters every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tend m)
    (hch := ⟨fun _ => .rfl, fun _ => .rfl, fun _ => .rfl, fun _ => .rfl, fun c => T_end m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howe, -, Hreg, -⟩, -⟩
      imodintro
      isplitl [Hbufs]; · iexact Hbufs
      isplitl [Hreg]; · iexists _; iexact Hreg
      iexists ∅; iexact Howe)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs] <;> iassumption)
    (hQ := fun s h c => h c)

end Cert.Kernel.Whole

end
-- ==== Proof.lean ====
/-
  The certificate of the soft-threshold gate kernel against its jnp reference.

  The kernel's program is three pallas_calls around one host stretch: the mean of x over its last axis, accumulated
  slab by slab in a scratch buffer; the gate, two matrix products with a batch normalisation, a relu and a logistic
  between and after them; the threshold column, the product of mean and gate with a unit axis added; and
  min(|x| - thr, 0), slab by slab. Its frame, for the word-level program and for the idealized one, is one launch
  over the three regions and the host stretch, each region entered from every unscoped buffer held at the contents
  the item before it left (Whole.lean over Mean.lean, Gate.lean, Shrink.lean and Fold.lean, written once at any float
  instance). Over the extended reals the array each pallas_call leaves is the reference's stage of the same name
  (MeanValue.lean: a sum taken in 32 parts is the sum, and the product with 2^-13 is the quotient by 8192;
  GateValue.lean: contracting the weight's second axis is contracting its transpose's first, and the one logistic
  operation is 1 / (1 + exp(-z)); ShrinkValue.lean: the 64 slabs tile the array), so the final arrays agree
  (Stages.lean). No law used needs a finite operand, so the precondition is never opened; the idealization rewrote
  nothing, so `preserves` has no conjunct.
-/
import proofs.«102520_j78245714198911_1_alg».proof.Defs
import proofs.«102520_j78245714198911_1_alg».proof.Proof.Gen.Kernel
import proofs.«102520_j78245714198911_1_alg».proof.Proof.Gen.KernelIdeal
import proofs.«102520_j78245714198911_1_alg».proof.Proof.Gen.ReferenceIdeal
import proofs.«102520_j78245714198911_1_alg».proof.Proof.Gen.Pre_finite_inputs
import proofs.«102520_j78245714198911_1_alg».proof.Proof.Gen.ReferenceIdeal.Run
import proofs.«102520_j78245714198911_1_alg».proof.Proof.Gen.ReferenceIdeal.Read
import proofs.«102520_j78245714198911_1_alg».proof.Proof.Whole
import proofs.«102520_j78245714198911_1_alg».proof.Proof.Stages
import proofs.«102520_j78245714198911_1_alg».proof.Proof.WordLevel.Whole
import Idealize.ShloMosaic.Adequacy
import Idealize.ShloMosaic.Init

set_option maxRecDepth 16384

noncomputable section

namespace Cert.Proof

open Idealize.ShloMosaic Idealize.ShloMosaic.TcCoe Idealize.SL.Sem

/-! ## The idealized kernel: its frame and its result -/

section Idealized

open Cert.KernelIdeal Cert.KernelIdeal.Gen Cert.KernelIdeal.Fold

/-- An unscoped TensorCore buffer is among those the run's last state holds. -/
theorem held_ki (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The idealized kernel runs to the end and leaves each argument as launched: the whole run, read at the arguments. -/
theorem frame_ki : Cert.frame_KernelIdeal := fun m ρ _ =>
  (θ_run Cert.KernelIdeal.defs _ _).mono (fun r h c =>
    ⟨(h c _ (held_ki main_arg0 (by decide))).trans (V4_main_arg0 m c),
      (h c _ (held_ki main_arg1 (by decide))).trans (V4_main_arg1 m c),
      (h c _ (held_ki main_arg2 (by decide))).trans (V4_main_arg2 m c),
      (h c _ (held_ki main_arg3 (by decide))).trans (V4_main_arg3 m c),
      (h c _ (held_ki main_arg4 (by decide))).trans (V4_main_arg4 m c),
      (h c _ (held_ki main_arg5 (by decide))).trans (V4_main_arg5 m c),
      (h c _ (held_ki main_arg6 (by decide))).trans (V4_main_arg6 m c),
      (h c _ (held_ki main_arg7 (by decide))).trans (V4_main_arg7 m c),
      (h c _ (held_ki main_arg8 (by decide))).trans (V4_main_arg8 m c)⟩)
    (Cert.KernelIdeal.Whole.run_all (F := Ideal) m ρ)

end Idealized

/-! ## The reference -/

theorem frame_ri : Cert.frame_ReferenceIdeal := fun m ρ _ =>
  (θ_run Cert.ReferenceIdeal.defs _ _).mono (fun _ h c => (h c).2) (Cert.ReferenceIdeal.Value.run (F := Ideal) m ρ)

/-! ## The two results agree -/

section Agree

open Cert.KernelIdeal Cert.KernelIdeal.Gen Cert.KernelIdeal.Fold

/-- From memories that agree on the nine arguments both idealized programs end with the reference's last stage of
    the kernel's arguments: the kernel by the chain of its four stages, the reference by its own run. -/
theorem algebraic : Cert.algebraic_KernelIdeal_ReferenceIdeal := by
  intro m ρ m' ρ' _ hagree
  refine ⟨fun c => Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)), ?_, ?_⟩
  · exact (θ_run Cert.KernelIdeal.defs _ _).mono (fun r h c =>
      ⟨(h c _ (held_ki main_v4 (by decide))).trans (Cert.KernelIdeal.Stages.result_stage m c),
      (h c _ (held_ki main_arg0 (by decide))).trans (V4_main_arg0 m c),
      (h c _ (held_ki main_arg1 (by decide))).trans (V4_main_arg1 m c),
      (h c _ (held_ki main_arg2 (by decide))).trans (V4_main_arg2 m c),
      (h c _ (held_ki main_arg3 (by decide))).trans (V4_main_arg3 m c),
      (h c _ (held_ki main_arg4 (by decide))).trans (V4_main_arg4 m c),
      (h c _ (held_ki main_arg5 (by decide))).trans (V4_main_arg5 m c),
      (h c _ (held_ki main_arg6 (by decide))).trans (V4_main_arg6 m c),
      (h c _ (held_ki main_arg7 (by decide))).trans (V4_main_arg7 m c),
      (h c _ (held_ki main_arg8 (by decide))).trans (V4_main_arg8 m c)⟩)
      (Cert.KernelIdeal.Whole.run_all (F := Ideal) m ρ)
  · refine (θ_run Cert.ReferenceIdeal.defs _ _).mono (fun r h c => ⟨((h c).1.trans (Cert.ReferenceIdeal.Read.val_main_v41_eq _ _ _ _ _ _ _ _ _)).trans ?_, (h c).2⟩)
      (Cert.ReferenceIdeal.Value.run (F := Ideal) m' ρ')
    obtain ⟨e0, e1, e2, e3, e4, e5, e6, e7, e8⟩ := hagree c
    rw [e0, e1, e2, e3, e4, e5, e6, e7, e8]

end Agree

/-! ## The word-level kernel's frame -/

section WordLevel

open Cert.Kernel Cert.Kernel.Gen Cert.Kernel.Fold

/-- An unscoped TensorCore buffer is among those the run's last state holds. -/
theorem held_k (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The word-level kernel runs to the end and leaves each argument as launched: the same launch, read at the word
    instance (the two printed programs are one text). -/
theorem frame_k : Cert.frame_Kernel := fun m ρ _ =>
  (θ_run Cert.Kernel.defs _ _).mono (fun r h c =>
    ⟨(h c _ (held_k main_arg0 (by decide))).trans (V4_main_arg0 m c),
      (h c _ (held_k main_arg1 (by decide))).trans (V4_main_arg1 m c),
      (h c _ (held_k main_arg2 (by decide))).trans (V4_main_arg2 m c),
      (h c _ (held_k main_arg3 (by decide))).trans (V4_main_arg3 m c),
      (h c _ (held_k main_arg4 (by decide))).trans (V4_main_arg4 m c),
      (h c _ (held_k main_arg5 (by decide))).trans (V4_main_arg5 m c),
      (h c _ (held_k main_arg6 (by decide))).trans (V4_main_arg6 m c),
      (h c _ (held_k main_arg7 (by decide))).trans (V4_main_arg7 m c),
      (h c _ (held_k main_arg8 (by decide))).trans (V4_main_arg8 m c)⟩)
    (Cert.Kernel.Whole.run_all (F := Bits) m ρ)

end WordLevel

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
